-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192x32 : Shape := ⟨3, ![256, 8192, 32]⟩
abbrev S256x4x32 : Shape := ⟨3, ![256, 4, 32]⟩
abbrev S256x4 : Shape := ⟨2, ![256, 4]⟩
abbrev S_ : Shape := ⟨0, ![]⟩

class Facts : Prop where
  bcast_S_S256x8192x32 : S_.BroadcastsInDim S256x8192x32 (![] : Fin 0 → Fin S256x8192x32.rank)
  reducesTo_S256x8192x32_S_d0_1_2 : S256x8192x32.ReducesTo [0, 1, 2] S_
  h_S_ : 0 < S_.numel
  bcast_S_S256x4x32 : S_.BroadcastsInDim S256x4x32 (![] : Fin 0 → Fin S256x4x32.rank)
  reducesTo_S256x4x32_S_d0_1_2 : S256x4x32.ReducesTo [0, 1, 2] S_
  bcast_S_S256x4 : S_.BroadcastsInDim S256x4 (![] : Fin 0 → Fin S256x4.rank)
  reducesTo_S256x4_S_d0_1 : S256x4.ReducesTo [0, 1] S_

variable [Facts]

def fn {F : FTy → Type} [FloatOps F] (main_arg0 : FVec F S256x8192x32 .f32) (main_arg1 : FVec F S256x4x32 .f32) (main_arg2 : FVec F S256x4 .f32) : IVec S_ 1 :=
  let main_v0 : FVec F S256x8192x32 .f32 := Host.absf main_arg0
  let main_cst : FVec F S_ .f32 := constant S_ .f32 0x7F800000#32
  let main_v1 : FVec F S256x8192x32 .f32 := broadcastInDim S256x8192x32 ![] bcast_S_S256x8192x32 main_cst
  let main_v2 : IVec S256x8192x32 1 := cmpf .olt main_v0 main_v1
  let main_c : IVec S_ 1 := constantI S_ 1 1#1
  let main_v3 : IVec S_ 1 := (fun x v => Host.reduce IntOp.andi x v reducesTo_S256x8192x32_S_d0_1_2 h_S_) main_v2 main_c
  let main_v4 : FVec F S256x4x32 .f32 := Host.absf main_arg1
  let main_cst_0 : FVec F S_ .f32 := constant S_ .f32 0x7F800000#32
  let main_v5 : FVec F S256x4x32 .f32 := broadcastInDim S256x4x32 ![] bcast_S_S256x4x32 main_cst_0
  let main_v6 : IVec S256x4x32 1 := cmpf .olt main_v4 main_v5
  let main_c_1 : IVec S_ 1 := constantI S_ 1 1#1
  let main_v7 : IVec S_ 1 := (fun x v => Host.reduce IntOp.andi x v reducesTo_S256x4x32_S_d0_1_2 h_S_) main_v6 main_c_1
  let main_v8 : IVec S_ 1 := andi main_v3 main_v7
  let main_v9 : FVec F S256x4 .f32 := Host.absf main_arg2
  let main_cst_2 : FVec F S_ .f32 := constant S_ .f32 0x7F800000#32
  let main_v10 : FVec F S256x4 .f32 := broadcastInDim S256x4 ![] bcast_S_S256x4 main_cst_2
  let main_v11 : IVec S256x4 1 := cmpf .olt main_v9 main_v10
  let main_c_3 : IVec S_ 1 := constantI S_ 1 1#1
  let main_v12 : IVec S_ 1 := (fun x v => Host.reduce IntOp.andi x v reducesTo_S256x4_S_d0_1 h_S_) main_v11 main_c_3
  let main_v13 : IVec S_ 1 := andi main_v8 main_v12
  main_v13
-- ==== Kernel.lean ====
abbrev S256x8192x32 : Shape := ⟨3, ![256, 8192, 32]⟩
abbrev S256x4x32 : Shape := ⟨3, ![256, 4, 32]⟩
abbrev S256x4 : Shape := ⟨2, ![256, 4]⟩
abbrev S256x4x8192 : Shape := ⟨3, ![256, 4, 8192]⟩
abbrev S16x512x32 : Shape := ⟨3, ![16, 512, 32]⟩
abbrev S16x4x32 : Shape := ⟨3, ![16, 4, 32]⟩
abbrev S16x4 : Shape := ⟨2, ![16, 4]⟩
abbrev S16x4x8192 : Shape := ⟨3, ![16, 4, 8192]⟩
abbrev S16x512 : Shape := ⟨2, ![16, 512]⟩
abbrev S16x4x512 : Shape := ⟨3, ![16, 4, 512]⟩
abbrev S16x4x1 : Shape := ⟨3, ![16, 4, 1]⟩
abbrev S16x1x512 : Shape := ⟨3, ![16, 1, 512]⟩

abbrev nBuf : Space → Nat
  | .hbm => 4
  | .vmem => 10
  | .smem => 0
  | _ => 0

abbrev bufTy : (tb : Table) → Fin (tcTables nBuf tb) → BufTy
  | .hbm, ⟨0, _⟩ => ⟨S256x8192x32, .f32⟩
  | .hbm, ⟨1, _⟩ => ⟨S256x4x32, .f32⟩
  | .hbm, ⟨2, _⟩ => ⟨S256x4, .f32⟩
  | .hbm, ⟨3, _⟩ => ⟨S256x4x8192, .f32⟩
  | .local _ .vmem, ⟨0, _⟩ => ⟨S16x512x32, .f32⟩
  | .local _ .vmem, ⟨1, _⟩ => ⟨S16x512x32, .f32⟩
  | .local _ .vmem, ⟨2, _⟩ => ⟨S16x4x32, .f32⟩
  | .local _ .vmem, ⟨3, _⟩ => ⟨S16x4x32, .f32⟩
  | .local _ .vmem, ⟨4, _⟩ => ⟨S16x4, .f32⟩
  | .local _ .vmem, ⟨5, _⟩ => ⟨S16x4, .f32⟩
  | .local _ .vmem, ⟨6, _⟩ => ⟨S16x4x8192, .f32⟩
  | .local _ .vmem, ⟨7, _⟩ => ⟨S16x4x8192, .f32⟩
  | .local _ .vmem, ⟨8, _⟩ => ⟨S16x4x8192, .f32⟩
  | .local _ .vmem, ⟨9, _⟩ => ⟨S16x4, .f32⟩
  | _, _ => ⟨S256x8192x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c512_i32 : BitVec 32 := 512#32
  let v45 : BitVec 32 := Scalar.muli arg1 c512_i32
  v45
def k0_off1 (i : grid0.Coords) : Fin 3 → Nat :=
  let c0_15 : Index := 0#32
  let c0_16 : Index := 0#32
  let arg1 : BitVec 32 := BitVec.ofNat 32 (i 1).val
  let c512_i32 : BitVec 32 := 512#32
  let v45 : BitVec 32 := Scalar.muli arg1 c512_i32
  let v46 : BitVec 32 := v45
  let v47 : Index := Scalar.indexCast v46
  ![0, 0, v47.toNat]
def k0_cond2 (i : grid0.Coords) : BitVec 1 :=
  let arg1 : BitVec 32 := BitVec.ofNat 32 (i 1).val
  let c15_i32 : BitVec 32 := 15#32
  let v57 : BitVec 1 := Scalar.cmpi .eq arg1 c15_i32
  let v58 : BitVec 32 := Scalar.extui v57
  let c0_i32_22 : BitVec 32 := 0#32
  let v59 : BitVec 1 := Scalar.cmpi .ne v58 c0_i32_22
  v59

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x4x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x4x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S16x4_S16x4_0_0 : ∀ a, (![0, 0] : Fin 2 → Nat) a + S16x4.size a ≤ S16x4.size a
  h_S16x4 : 0 < S16x4.numel
  shapeCasts_S16x4_S16x4 : S16x4.ShapeCasts S16x4
  inb_S16x512x32_S16x512x32_0_0_0 : ∀ a, (![0, 0, 0] : Fin 3 → Nat) a + S16x512x32.size a ≤ S16x512x32.size a
  h_S16x512x32 : 0 < S16x512x32.numel
  inb_S16x4x32_S16x4x32_0_0_0 : ∀ a, (![0, 0, 0] : Fin 3 → Nat) a + S16x4x32.size a ≤ S16x4x32.size a
  h_S16x4x32 : 0 < S16x4x32.numel
  reduces_S16x512x32_S16x512 : S16x512x32.Reduces [2] S16x512
  reduces_S16x4x32_S16x4 : S16x4x32.Reduces [2] S16x4
  bitsLt_bf16_f32 : FTy.bits .bf16 < FTy.bits .f32
  shapeCasts_S16x4_S16x4x1 : S16x4.ShapeCasts S16x4x1
  shapeCasts_S16x512_S16x1x512 : S16x512.ShapeCasts S16x1x512
  broadcasts_S16x4x1_S16x4x512 : S16x4x1.Broadcasts S16x4x512
  broadcasts_S16x1x512_S16x4x512 : S16x1x512.Broadcasts S16x4x512
  h_S16x4x512 : 0 < S16x4x512.numel
  shapeCasts_S16x4x512_S16x4x512 : S16x4x512.ShapeCasts S16x4x512
  reduces_S16x4x512_S16x4 : S16x4x512.Reduces [2] S16x4
  inb_S16x4x8192_S16x4x8192_0_0_0 : ∀ a, (![0, 0, 0] : Fin 3 → Nat) a + S16x4x8192.size a ≤ S16x4x8192.size a
  h_S16x4x8192 : 0 < S16x4x8192.numel
  broadcasts_S16x4x1_S16x4x8192 : S16x4x1.Broadcasts S16x4x8192
  dot_S16x4x32_S16x512x32_S16x4x512_2_2_1_1_0_0_wf : DotDims.WF S16x4x32 S16x512x32 S16x4x512 [2] [2] [1] [1] [0] [0]
  hrank0 : 0 < grid0.rank
  k0_mult1_dvd : ∀ i : grid0.Coords, 512 ∣ (k0_mult1 i).toNat
  k0_off1_inb : ∀ i : grid0.Coords, ∀ a, (k0_off1 i) a + S16x4x512.size a ≤ S16x4x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512x32.size a ≤ S256x8192x32.size a
  hwx0_0 : ∀ i : grid0.Coords, EltTy.bits .f32 = 32 ∨ (Rect.block (s := S256x8192x32) S16x512x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x4x32.size a ≤ S256x4x32.size a
  hwx0_1 : ∀ i : grid0.Coords, EltTy.bits .f32 = 32 ∨ (Rect.block (s := S256x4x32) S16x4x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x4.size a ≤ S256x4.size a
  hwx0_2 : ∀ i : grid0.Coords, EltTy.bits .f32 = 32 ∨ (Rect.block (s := S256x4) S16x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x4x8192.size a ≤ S256x4x8192.size a
  hwx0_3 : ∀ i : grid0.Coords, EltTy.bits .f32 = 32 ∨ (Rect.block (s := S256x4x8192) S16x4x8192.size (cc0_transform_3 i) (hinb0_3 i)).WholeWords (EltTy.packing .f32)

variable [Facts₀]

def dot_S16x4x32_S16x512x32_S16x4x512_2_2_1_1_0_0 : DotDims S16x4x32 S16x512x32 S16x4x512 where
  lhsContracting := [2]
  rhsContracting := [2]
  lhsNonContracting := [1]
  rhsNonContracting := [1]
  lhsBatch := [0]
  rhsBatch := [0]
  wf := dot_S16x4x32_S16x512x32_S16x4x512_2_2_1_1_0_0_wf

abbrev win0_0 : Pipeline.Window sig grid0 :=
  Pipeline.Window.ofSpec (Memref.whole main_arg0) S16x512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x4x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S16x4x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x8192x32 : Shape := ⟨3, ![256, 8192, 32]⟩
abbrev S256x4x32 : Shape := ⟨3, ![256, 4, 32]⟩
abbrev S256x4 : Shape := ⟨2, ![256, 4]⟩
abbrev S256x4x8192 : Shape := ⟨3, ![256, 4, 8192]⟩
abbrev S_ : Shape := ⟨0, ![]⟩
abbrev S256x8192 : Shape := ⟨2, ![256, 8192]⟩
abbrev S256x4x1 : Shape := ⟨3, ![256, 4, 1]⟩
abbrev S256x1x8192 : Shape := ⟨3, ![256, 1, 8192]⟩

abbrev nBuf : Space → Nat
  | .hbm => 58
  | .vmem => 0
  | .smem => 0
  | _ => 0

abbrev bufTy : (tb : Table) → Fin (tcTables nBuf tb) → BufTy
  | .hbm, ⟨0, _⟩ => ⟨S256x8192x32, .f32⟩
  | .hbm, ⟨1, _⟩ => ⟨S256x4x32, .f32⟩
  | .hbm, ⟨2, _⟩ => ⟨S256x4, .f32⟩
  | .hbm, ⟨3, _⟩ => ⟨S256x4x8192, .f32⟩
  | .hbm, ⟨4, _⟩ => ⟨S256x8192x32, .f32⟩
  | .hbm, ⟨5, _⟩ => ⟨S_, .f32⟩
  | .hbm, ⟨6, _⟩ => ⟨S256x8192, .f32⟩
  | .hbm, ⟨7, _⟩ => ⟨S_, .f32⟩
  | .hbm, ⟨8, _⟩ => ⟨S256x8192, .f32⟩
  | .hbm, ⟨9, _⟩ => ⟨S256x8192, .f32⟩
  | .hbm, ⟨10, _⟩ => ⟨S256x8192, .f32⟩
  | .hbm, ⟨11, _⟩ => ⟨S256x4x32, .f32⟩
  | .hbm, ⟨12, _⟩ => ⟨S_, .f32⟩
  | .hbm, ⟨13, _⟩ => ⟨S256x4, .f32⟩
  | .hbm, ⟨14, _⟩ => ⟨S_, .f32⟩
  | .hbm, ⟨15, _⟩ => ⟨S256x4, .f32⟩
  | .hbm, ⟨16, _⟩ => ⟨S256x4, .f32⟩
  | .hbm, ⟨17, _⟩ => ⟨S256x4, .f32⟩
  | .hbm, ⟨18, _⟩ => ⟨S256x4x1, .f32⟩
  | .hbm, ⟨19, _⟩ => ⟨S256x1x8192, .f32⟩
  | .hbm, ⟨20, _⟩ => ⟨S256x4x8192, .f32⟩
  | .hbm, ⟨21, _⟩ => ⟨S256x4x8192, .f32⟩
  | .hbm, ⟨22, _⟩ => ⟨S256x4x8192, .f32⟩
  | .hbm, ⟨23, _⟩ => ⟨S_, .f32⟩
  | .hbm, ⟨24, _⟩ => ⟨S256x4x8192, .f32⟩
  | .hbm, ⟨25, _⟩ => ⟨S256x4x8192, .f32⟩
  | .hbm, ⟨26, _⟩ => ⟨S256x4x8192, .f32⟩
  | .hbm, ⟨27, _⟩ => ⟨S_, .f32⟩
  | .hbm, ⟨28, _⟩ => ⟨S256x4, .f32⟩
  | .hbm, ⟨29, _⟩ => ⟨S256x4, .f32⟩
  | .hbm, ⟨30, _⟩ => ⟨S256x4, .f32⟩
  | .hbm, ⟨31, _⟩ => ⟨S256x4, .f32⟩
  | .hbm, ⟨32, _⟩ => ⟨S256x4, .i1⟩
  | .hbm, ⟨33, _⟩ => ⟨S256x4, .f32⟩
  | .hbm, ⟨34, _⟩ => ⟨S256x4, .f32⟩
  | .hbm, ⟨35, _⟩ => ⟨S256x4, .f32⟩
  | .hbm, ⟨36, _⟩ => ⟨S256x4, .f32⟩
  | .hbm, ⟨37, _⟩ => ⟨S256x4, .f32⟩
  | .hbm, ⟨38, _⟩ => ⟨S256x4, .f32⟩
  | .hbm, ⟨39, _⟩ => ⟨S256x4, .f32⟩
  | .hbm, ⟨40, _⟩ => ⟨S256x4, .f32⟩
  | .hbm, ⟨41, _⟩ => ⟨S256x4x1, .f32⟩
  | .hbm, ⟨42, _⟩ => ⟨S256x4x8192, .f32⟩
  | .hbm, ⟨43, _⟩ => ⟨S256x4x8192, .f32⟩
  | .hbm, ⟨44, _⟩ => ⟨S_, .f32⟩
  | .hbm, ⟨45, _⟩ => ⟨S256x4, .f32⟩
  | .hbm, ⟨46, _⟩ => ⟨S_, .f32⟩
  | .hbm, ⟨47, _⟩ => ⟨S256x4, .f32⟩
  | .hbm, ⟨48, _⟩ => ⟨S256x4, .f32⟩
  | .hbm, ⟨49, _⟩ => ⟨S256x4x1, .f32⟩
  | .hbm, ⟨50, _⟩ => ⟨S256x4x8192, .f32⟩
  | .hbm, ⟨51, _⟩ => ⟨S256x4x8192, .f32⟩
  | .hbm, ⟨52, _⟩ => ⟨S256x4x8192, .f32⟩
  | .hbm, ⟨53, _⟩ => ⟨S_, .f32⟩
  | .hbm, ⟨54, _⟩ => ⟨S256x4, .f32⟩
  | .hbm, ⟨55, _⟩ => ⟨S256x4x1, .f32⟩
  | .hbm, ⟨56, _⟩ => ⟨S256x4x8192, .f32⟩
  | .hbm, ⟨57, _⟩ => ⟨S256x4x8192, .f32⟩
  | _, _ => ⟨S256x8192x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_cst_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩

abbrev nD : Nat := 1
abbrev τ : Topo := Topo.v7x

variable {F : FTy → Type} [FloatOps F]

class Facts₀ : Prop where
  reducesTo_S256x8192x32_S256x8192_d2 : S256x8192x32.ReducesTo [2] S256x8192
  h_S_ : 0 < S_.numel
  bcast_S_S256x8192 : S_.BroadcastsInDim S256x8192 (![] : Fin 0 → Fin S256x8192.rank)
  reducesTo_S256x4x32_S256x4_d2 : S256x4x32.ReducesTo [2] S256x4
  bcast_S_S256x4 : S_.BroadcastsInDim S256x4 (![] : Fin 0 → Fin S256x4.rank)
  bcast_S256x4_S256x4x1_0_1 : S256x4.BroadcastsInDim S256x4x1 (![0, 1] : Fin 2 → Fin S256x4x1.rank)
  bcast_S256x8192_S256x1x8192_0_2 : S256x8192.BroadcastsInDim S256x1x8192 (![0, 2] : Fin 2 → Fin S256x1x8192.rank)
  bcast_S256x4x1_S256x4x8192_0_1_2 : S256x4x1.BroadcastsInDim S256x4x8192 (![0, 1, 2] : Fin 3 → Fin S256x4x8192.rank)
  bcast_S256x1x8192_S256x4x8192_0_1_2 : S256x1x8192.BroadcastsInDim S256x4x8192 (![0, 1, 2] : Fin 3 → Fin S256x4x8192.rank)
  bcast_S_S256x4x8192 : S_.BroadcastsInDim S256x4x8192 (![] : Fin 0 → Fin S256x4x8192.rank)
  reducesTo_S256x4x8192_S256x4_d2 : S256x4x8192.ReducesTo [2] S256x4
  dot_S256x4x32_S256x8192x32_S256x4x8192_2_2_1_1_0_0_wf : DotDims.WF S256x4x32 S256x8192x32 S256x4x8192 [2] [2] [1] [1] [0] [0]

variable [Facts₀]

def dot_S256x4x32_S256x8192x32_S256x4x8192_2_2_1_1_0_0 : DotDims S256x4x32 S256x8192x32 S256x4x8192 where
  lhsContracting := [2]
  rhsContracting := [2]
  lhsNonContracting := [1]
  rhsNonContracting := [1]
  lhsBatch := [0]
  rhsBatch := [0]
  wf := dot_S256x4x32_S256x8192x32_S256x4x8192_2_2_1_1_0_0_wf

class Facts : Prop extends Facts₀ where

variable [Facts]
-- ==== Proof.KB.Pay.lean ====
/-
  The two values a grid point computes from its three input blocks: the tile of exponentials it parks in the
  scratch, and the running row sum it leaves in the accumulator, given what the accumulator held.
-/
import proofs.«428490_j68822555951213_3_alg».proof.Proof.Gen.Kernel.Skeleton

noncomputable section

namespace Cert.Kernel.Body

open Cert.Kernel Cert.Kernel.Gen Idealize.ShloMosaic Idealize.SL.Sem

variable {F : FTy → Type} [FloatOps F]

/-- The tile `exp (sharp)` of a point, from its memory block `x0`, key block `x1` and strength block `x2`. -/
def expT (x0 : Vec F S16x512x32 .f32) (x1 : Vec F S16x4x32 .f32) (x2 : Vec F S16x4 .f32) : FVec F S16x4x512 .f32 :=
  k0_pay2 (k0_pay6 x0 x1) (k0_pay7 x2) (k0_pay9 x2) (k0_pay10 x2) (k0_pay11 x2)

/-- The accumulator after the point: what it held, `a`, plus the tile's row sums. -/
def accT (x0 : Vec F S16x512x32 .f32) (x1 : Vec F S16x4x32 .f32) (x2 : Vec F S16x4 .f32) (a : Vec F S16x4 .f32) : FVec F S16x4 .f32 :=
  k0_pay3 (k0_pay6 x0 x1) (k0_pay7 x2) (k0_pay9 x2) (k0_pay10 x2) (k0_pay11 x2) a

end Cert.Kernel.Body

end
-- ==== Proof.KB.Base.lean ====
/-
  What the three runs of the kernel body share. A grid point `t` of the 16 × 16 grid is batch block `t / 16` and
  memory tile `t % 16`: the body resets the row-sum accumulator at tile 0 and writes the normalised block out at
  tile 15, so a point is in one of three cases, decided here in closed form; and the memrefs the pipeline calls the
  body with at a point, with the two scratch buffers the kernel keeps for itself.
-/
import proofs.«428490_j68822555951213_3_alg».proof.Proof.Gen.Kernel.Launch
import proofs.«428490_j68822555951213_3_alg».proof.Proof.Gen.Kernel.Skeleton
import proofs.«428490_j68822555951213_3_alg».proof.Proof.Gen.Kernel.Points
import proofs.«428490_j68822555951213_3_alg».proof.Proof.Gen.Kernel.Frame
import proofs.«428490_j68822555951213_3_alg».proof.Proof.KB.Pay
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first memory tile of its batch block (`pl.when(j == 0)`). -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 16 = 0 :=
  (by decide +kernel : ∀ t : Fin grid0.N, isFirst (grid0.coords t) ↔ t.val % 16 = 0)

/-- The point is the last memory tile of its batch block (`pl.when(j == n_j - 1)`). -/
abbrev isLast (i : grid0.Coords) : Prop := k0_cond2 i = 1#1
theorem isLast_iff : ∀ t : Fin cfg0.N, isLast (grid0.coords t) ↔ t.val % 16 = 15 :=
  (by decide +kernel : ∀ t : Fin grid0.N, isLast (grid0.coords t) ↔ t.val % 16 = 15)

/-- The inputs' windows are live at every point; the output's is idle except at the last tile of a block. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3_iff : ∀ t : Fin cfg0.N, cfg0.idle 3 (grid0.coords t) = true ↔ ¬ t.val % 16 = 15 :=
  (by decide +kernel : ∀ t : Fin grid0.N, cfg0.idle 3 (grid0.coords t) = true ↔ ¬ t.val % 16 = 15)

/-- Each window's current staging memref at point `t`, as the pipeline passes it to the body. -/
abbrev mem0 (t : Fin cfg0.N) : Memref sig .tc .vmem S16x512x32 .f32 := win0_0.stage (cfg0.slots t 0)
abbrev hmem0 (t : Fin cfg0.N) : (mem0 t).IsWhole := hstage0_0 ((cfg0.slots t 0).cast nbuf0_0)
abbrev mem1 (t : Fin cfg0.N) : Memref sig .tc .vmem S16x4x32 .f32 := win0_1.stage (cfg0.slots t 1)
abbrev hmem1 (t : Fin cfg0.N) : (mem1 t).IsWhole := hstage0_1 ((cfg0.slots t 1).cast nbuf0_1)
abbrev mem2 (t : Fin cfg0.N) : Memref sig .tc .vmem S16x4 .f32 := win0_2.stage (cfg0.slots t 2)
abbrev hmem2 (t : Fin cfg0.N) : (mem2 t).IsWhole := hstage0_2 ((cfg0.slots t 2).cast nbuf0_2)
abbrev mem3 (t : Fin cfg0.N) : Memref sig .tc .vmem S16x4x8192 .f32 := win0_3.stage (cfg0.slots t 3)
abbrev hmem3 (t : Fin cfg0.N) : (mem3 t).IsWhole := hstage0_3 ((cfg0.slots t 3).cast nbuf0_3)
/-- The scratch that parks the exponentials of a batch block, one tile per point, and the row-sum accumulator. -/
abbrev parked : Memref sig .tc .vmem S16x4x8192 .f32 := Memref.whole cc0_scratch0
abbrev rowsum : Memref sig .tc .vmem S16x4 .f32 := Memref.whole cc0_scratch1

/-- What the launch hands the region besides the windows: the two scratch buffers at some contents and the
    generator register at some state. -/
theorem PhiA_eq (c : Dev nD) :
    (Pipeline.ΦA spec0 c : sProp 𝕄)
      = iprop(iprop((∃ d, owns (c : Thread nD τ) parked fullShare d) ∗ (∃ d, owns (c : Thread nD τ) rowsum fullShare d)) ∗ (∃ r, prngReg c r)) := by
  unfold Pipeline.ΦA; rw [scopedRest0_eq]; simp only [parked, rowsum, owns_whole]; try rfl

end Cert.Kernel.Body

end
-- ==== Proof.KB.RunMid.lean ====
/-
  The body at a MIDDLE tile of a batch block (neither reset nor write-out): on whole memrefs holding the three
  input blocks, the output's staging buffer at any contents `x3`, the parking scratch at `xs0` and the accumulator
  at `xs1`, it runs to a state with the inputs and the output's buffer as they were, the scratch with this tile
  written over `xs0`, and the accumulator overwritten. The lists of stores are found by the run itself.
-/
import proofs.«428490_j68822555951213_3_alg».proof.Proof.KB.Base

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runMid (c : Dev nD) (i : grid0.Coords) (arg2 : Memref sig .tc .vmem S16x512x32 .f32) (harg2 : arg2.IsWhole) (arg3 : Memref sig .tc .vmem S16x4x32 .f32) (harg3 : arg3.IsWhole) (arg4 : Memref sig .tc .vmem S16x4 .f32) (harg4 : arg4.IsWhole) (arg5 : Memref sig .tc .vmem S16x4x8192 .f32) (harg5 : arg5.IsWhole) (arg6 : Memref sig .tc .vmem S16x4x8192 .f32) (harg6 : arg6.IsWhole) (arg7 : Memref sig .tc .vmem S16x4 .f32) (harg7 : arg7.IsWhole) (hc0 : ¬isFirst i) (hc1 : ¬isLast i)
    (x0 : Vec F S16x512x32 .f32) (x1 : Vec F S16x4x32 .f32) (x2 : Vec F S16x4 .f32) (xs1 : Vec F S16x4 .f32) :
    Σ' (LS0 : List (View.Piece (Elt F) S16x4x8192 .f32)), { LS1 : List (View.Piece (Elt F) S16x4 .f32) //
      ∀ (x3 xs0 : Vec F S16x4x8192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (arg6.view.loc (c : Thread nD τ) ↦[arg6.view.set]{fullShare} arg6.view.writes (Elt F) (harg6.unread xs0) LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, ?_, fun x3 xs0 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexact HS0
    iexists _; iexact HS1

end Cert.Kernel.Body

end
-- ==== Proof.KB.RunFirst.lean ====
/-
  The body at the FIRST tile of a batch block: as at a middle tile, except that the accumulator, handed over at
  any contents, is reset to zero before this tile's row sums are added.
-/
import proofs.«428490_j68822555951213_3_alg».proof.Proof.KB.RunMid

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runFirst (c : Dev nD) (i : grid0.Coords) (arg2 : Memref sig .tc .vmem S16x512x32 .f32) (harg2 : arg2.IsWhole) (arg3 : Memref sig .tc .vmem S16x4x32 .f32) (harg3 : arg3.IsWhole) (arg4 : Memref sig .tc .vmem S16x4 .f32) (harg4 : arg4.IsWhole) (arg5 : Memref sig .tc .vmem S16x4x8192 .f32) (harg5 : arg5.IsWhole) (arg6 : Memref sig .tc .vmem S16x4x8192 .f32) (harg6 : arg6.IsWhole) (arg7 : Memref sig .tc .vmem S16x4 .f32) (harg7 : arg7.IsWhole) (hc0 : isFirst i) (hc1 : ¬isLast i)
    (x0 : Vec F S16x512x32 .f32) (x1 : Vec F S16x4x32 .f32) (x2 : Vec F S16x4 .f32) :
    Σ' (LS0 : List (View.Piece (Elt F) S16x4x8192 .f32)), { LS1 : List (View.Piece (Elt F) S16x4 .f32) //
      ∀ (x3 xs0 : Vec F S16x4x8192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xs0 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (arg6.view.loc (c : Thread nD τ) ↦[arg6.view.set]{fullShare} arg6.view.writes (Elt F) (harg6.unread xs0) LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, ?_, fun x3 xs0 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexact HS0
    iexists _; iexact HS1

end Cert.Kernel.Body

end
-- ==== Proof.KB.RunLast.lean ====
/-
  The body at the LAST tile of a batch block: this tile is parked and its row sums added as at a middle tile, and
  then the whole parking scratch is read back, divided by the accumulator, and stored over the output's staging
  buffer (handed over at any contents).
-/
import proofs.«428490_j68822555951213_3_alg».proof.Proof.KB.RunFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runLast (c : Dev nD) (i : grid0.Coords) (arg2 : Memref sig .tc .vmem S16x512x32 .f32) (harg2 : arg2.IsWhole) (arg3 : Memref sig .tc .vmem S16x4x32 .f32) (harg3 : arg3.IsWhole) (arg4 : Memref sig .tc .vmem S16x4 .f32) (harg4 : arg4.IsWhole) (arg5 : Memref sig .tc .vmem S16x4x8192 .f32) (harg5 : arg5.IsWhole) (arg6 : Memref sig .tc .vmem S16x4x8192 .f32) (harg6 : arg6.IsWhole) (arg7 : Memref sig .tc .vmem S16x4 .f32) (harg7 : arg7.IsWhole) (hc0 : ¬isFirst i) (hc1 : isLast i)
    (x0 : Vec F S16x512x32 .f32) (x1 : Vec F S16x4x32 .f32) (x2 : Vec F S16x4 .f32) (xs1 : Vec F S16x4 .f32) (xs0 : Vec F S16x4x8192 .f32) :
    Σ' (L3 : List (View.Piece (Elt F) S16x4x8192 .f32)) (LS0 : List (View.Piece (Elt F) S16x4x8192 .f32)), { LS1 : List (View.Piece (Elt F) S16x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (arg6.view.loc (c : Thread nD τ) ↦[arg6.view.set]{fullShare} arg6.view.writes (Elt F) (harg6.unread xs0) LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexact HS0
    iexists _; iexact HS1

end Cert.Kernel.Body

end
-- ==== Proof.KB.State.lean ====
/-
  What the kernel's two scratch buffers hold after each grid point, and the proof data of the pipeline.

  The parking scratch after point `n` is the tile of point `n` written at its offset over what the scratch held
  after point `n - 1` (over its entry contents `d0` at the first point). The accumulator after point `n` is this
  tile's row sums added to what it held — to zero at the first tile of a batch block. At the last tile of a block
  every one of the 16 slices of the parking scratch has been written since the block began, so the scratch is the
  whole block of exponentials `wholeExp`, a function of the input blocks alone, and the output's staging buffer is
  left at `wholeExp` divided by the accumulator.
-/
import proofs.«428490_j68822555951213_3_alg».proof.Proof.KB.RunLast
import Idealize.ShloMosaic.Lib.Pipeline.Value
import Idealize.ShloMosaic.Lib.WritesUnit
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zeros2 : (![0, 0] : Fin 2 → Nat) = fun _ => 0 := by
  funext a; match a with | ⟨0, _⟩ => rfl | ⟨1, _⟩ => rfl
theorem zeros3 : (![0, 0, 0] : Fin 3 → Nat) = fun _ => 0 := by
  funext a; match a with | ⟨0, _⟩ => rfl | ⟨1, _⟩ => rfl | ⟨2, _⟩ => rfl

/-! ## The input blocks and the tile of a point -/

/-- The three input blocks of point `t`, at their literal types. -/
abbrev memBlk (c : Dev nD) (t : Fin cfg0.N) : Vec F S16x512x32 .f32 := iblk m c 0 t
abbrev keyBlk (c : Dev nD) (t : Fin cfg0.N) : Vec F S16x4x32 .f32 := iblk m c 1 t
abbrev strBlk (c : Dev nD) (t : Fin cfg0.N) : Vec F S16x4 .f32 := iblk m c 2 t

/-- The tile of exponentials point `t` computes. -/
def tileAt (c : Dev nD) (t : Fin cfg0.N) : FVec F S16x4x512 .f32 := expT (memBlk m c t) (keyBlk m c t) (strBlk m c t)

/-- A tile `e` written into the parking scratch at the offset of the point with coordinates `i`, over contents `d`. -/
def parkStep (i : grid0.Coords) (e : FVec F S16x4x512 .f32) (d : Vec F S16x4x8192 .f32) : Vec F S16x4x8192 .f32 :=
  parked.view.read (Elt F) (parked.view.writes (Elt F) ((Memref.isWhole_whole cc0_scratch0).unread d)
    [(⟨Rect.unit (s := S16x4x8192) (k0_off1 i) S16x4x512.size (k0_off1_inb i), e⟩ : View.Piece (Elt F) S16x4x8192 .f32)])

/-- The parking scratch after point `n`, from contents `d0` before the first point. -/
def parkAt (c : Dev nD) (d0 : Vec F S16x4x8192 .f32) : (n : ℕ) → n < cfg0.N → Vec F S16x4x8192 .f32
  | 0, hn => parkStep (grid0.coords ⟨0, hn⟩) (tileAt m c ⟨0, hn⟩) d0
  | n + 1, hn => parkStep (grid0.coords ⟨n + 1, hn⟩) (tileAt m c ⟨n + 1, hn⟩) (parkAt c d0 n (Nat.lt_of_succ_lt hn))

/-- The accumulator after point `n`: reset at the first tile of each batch block. -/
def accAt (c : Dev nD) : (n : ℕ) → n < cfg0.N → Vec F S16x4 .f32
  | 0, hn => accT (memBlk m c ⟨0, hn⟩) (keyBlk m c ⟨0, hn⟩) (strBlk m c ⟨0, hn⟩) (k0_pay5 (F := F))
  | n + 1, hn =>
    if (n + 1) % 16 = 0 then accT (memBlk m c ⟨n + 1, hn⟩) (keyBlk m c ⟨n + 1, hn⟩) (strBlk m c ⟨n + 1, hn⟩) (k0_pay5 (F := F))
    else accT (memBlk m c ⟨n + 1, hn⟩) (keyBlk m c ⟨n + 1, hn⟩) (strBlk m c ⟨n + 1, hn⟩) (accAt c n (Nat.lt_of_succ_lt hn))

theorem accAt_first (c : Dev nD) (t : Fin cfg0.N) (h0 : t.val % 16 = 0) :
    accAt m c t.val t.isLt = accT (memBlk m c t) (keyBlk m c t) (strBlk m c t) (k0_pay5 (F := F)) := by
  obtain ⟨n, hn⟩ := t
  cases n with
  | zero => rfl
  | succ n => exact if_pos h0

theorem accAt_later (c : Dev nD) (t : Fin cfg0.N) (h0 : ¬ t.val % 16 = 0) :
    accAt m c t.val t.isLt = accT (memBlk m c t) (keyBlk m c t) (strBlk m c t)
      (accAt m c (t.val - 1) (Nat.lt_of_le_of_lt (Nat.sub_le _ _) t.isLt)) := by
  obtain ⟨n, hn⟩ := t
  cases n with
  | zero => exact absurd (Nat.zero_mod _) h0
  | succ n => exact if_neg h0

theorem parkAt_later (c : Dev nD) (d0 : Vec F S16x4x8192 .f32) (t : Fin cfg0.N) (hz : t.val ≠ 0) :
    parkAt m c d0 t.val t.isLt = parkStep (grid0.coords t) (tileAt m c t)
      (parkAt m c d0 (t.val - 1) (Nat.lt_of_le_of_lt (Nat.sub_le _ _) t.isLt)) := by
  obtain ⟨n, hn⟩ := t
  cases n with
  | zero => exact absurd rfl hz
  | succ n => rfl

/-! ## The whole block of exponentials -/

/-- The point of tile `j` in the batch block of point `t`. -/
def tilePoint (t : Fin cfg0.N) (j : ℕ) : Fin cfg0.N :=
  ⟨t.val / 16 * 16 + j % 16, by
    have h1 := t.isLt
    have h2 : cfg0.N = 256 := N_0
    omega⟩

/-- The exponentials of the whole batch block of point `t`: memory row `M` is row `M % 512` of tile `M / 512`. -/
def wholeExp (c : Dev nD) (t : Fin cfg0.N) : Vec F S16x4x8192 .f32 := fun y =>
  tileAt m c (tilePoint t ((y 2).val / 512))
    (ValueIdx.ix3 (⟨(y 0).val, (y 0).isLt⟩ : Fin 16) (⟨(y 1).val, (y 1).isLt⟩ : Fin 4) (⟨(y 2).val % 512, Nat.mod_lt _ (by decide)⟩ : Fin 512))

/-- What the last tile of a batch block leaves in the output's staging buffer. -/
def outAt (c : Dev nD) (t : Fin cfg0.N) : FVec F S16x4x8192 .f32 := k0_pay4 (wholeExp m c t) (accAt m c t.val t.isLt)

/-! ## What each run leaves, in these terms -/

theorem runMid_parked (c : Dev nD) (i : grid0.Coords) (arg2 : Memref sig .tc .vmem S16x512x32 .f32) (harg2 : arg2.IsWhole) (arg3 : Memref sig .tc .vmem S16x4x32 .f32) (harg3 : arg3.IsWhole) (arg4 : Memref sig .tc .vmem S16x4 .f32) (harg4 : arg4.IsWhole) (arg5 : Memref sig .tc .vmem S16x4x8192 .f32) (harg5 : arg5.IsWhole) (arg6 : Memref sig .tc .vmem S16x4x8192 .f32) (harg6 : arg6.IsWhole) (arg7 : Memref sig .tc .vmem S16x4 .f32) (harg7 : arg7.IsWhole) (hc0 : ¬isFirst i) (hc1 : ¬isLast i)
    (x0 : Vec F S16x512x32 .f32) (x1 : Vec F S16x4x32 .f32) (x2 : Vec F S16x4 .f32) (xs1 : Vec F S16x4 .f32) :
    (runMid c i arg2 harg2 arg3 harg3 arg4 harg4 arg5 harg5 arg6 harg6 arg7 harg7 hc0 hc1 x0 x1 x2 xs1).1
      = [⟨Rect.unit (s := S16x4x8192) (k0_off1 i) S16x4x512.size (k0_off1_inb i), expT x0 x1 x2⟩] := by
  unfold runMid; dsimp only; sl_unfold_run_names
  simp only [View.readAt_eq_ld, harg2.read_unread, harg3.read_unread, harg4.read_unread,
    View.ld_unit_zero (S := S16x512x32) zeros3, View.ld_unit_zero (S := S16x4x32) zeros3, View.ld_unit_zero (S := S16x4) zeros2]
  rfl

theorem runMid_rowsum (c : Dev nD) (i : grid0.Coords) (arg2 : Memref sig .tc .vmem S16x512x32 .f32) (harg2 : arg2.IsWhole) (arg3 : Memref sig .tc .vmem S16x4x32 .f32) (harg3 : arg3.IsWhole) (arg4 : Memref sig .tc .vmem S16x4 .f32) (harg4 : arg4.IsWhole) (arg5 : Memref sig .tc .vmem S16x4x8192 .f32) (harg5 : arg5.IsWhole) (arg6 : Memref sig .tc .vmem S16x4x8192 .f32) (harg6 : arg6.IsWhole) (arg7 : Memref sig .tc .vmem S16x4 .f32) (harg7 : arg7.IsWhole) (hc0 : ¬isFirst i) (hc1 : ¬isLast i)
    (x0 : Vec F S16x512x32 .f32) (x1 : Vec F S16x4x32 .f32) (x2 : Vec F S16x4 .f32) (xs1 : Vec F S16x4 .f32) :
    (runMid c i arg2 harg2 arg3 harg3 arg4 harg4 arg5 harg5 arg6 harg6 arg7 harg7 hc0 hc1 x0 x1 x2 xs1).2.1
      = [⟨Rect.unit (s := S16x4) ![0, 0] S16x4.size inb_S16x4_S16x4_0_0, accT x0 x1 x2 xs1⟩] := by
  unfold runMid; dsimp only; sl_unfold_run_names
  simp only [View.readAt_eq_ld, harg2.read_unread, harg3.read_unread, harg4.read_unread, harg7.read_unread,
    View.ld_unit_zero (S := S16x512x32) zeros3, View.ld_unit_zero (S := S16x4x32) zeros3, View.ld_unit_zero (S := S16x4) zeros2]
  rfl

theorem runFirst_parked (c : Dev nD) (i : grid0.Coords) (arg2 : Memref sig .tc .vmem S16x512x32 .f32) (harg2 : arg2.IsWhole) (arg3 : Memref sig .tc .vmem S16x4x32 .f32) (harg3 : arg3.IsWhole) (arg4 : Memref sig .tc .vmem S16x4 .f32) (harg4 : arg4.IsWhole) (arg5 : Memref sig .tc .vmem S16x4x8192 .f32) (harg5 : arg5.IsWhole) (arg6 : Memref sig .tc .vmem S16x4x8192 .f32) (harg6 : arg6.IsWhole) (arg7 : Memref sig .tc .vmem S16x4 .f32) (harg7 : arg7.IsWhole) (hc0 : isFirst i) (hc1 : ¬isLast i)
    (x0 : Vec F S16x512x32 .f32) (x1 : Vec F S16x4x32 .f32) (x2 : Vec F S16x4 .f32) :
    (runFirst c i arg2 harg2 arg3 harg3 arg4 harg4 arg5 harg5 arg6 harg6 arg7 harg7 hc0 hc1 x0 x1 x2).1
      = [⟨Rect.unit (s := S16x4x8192) (k0_off1 i) S16x4x512.size (k0_off1_inb i), expT x0 x1 x2⟩] := by
  unfold runFirst; dsimp only; sl_unfold_run_names
  simp only [View.readAt_eq_ld, harg2.read_unread, harg3.read_unread, harg4.read_unread,
    View.ld_unit_zero (S := S16x512x32) zeros3, View.ld_unit_zero (S := S16x4x32) zeros3, View.ld_unit_zero (S := S16x4) zeros2]
  rfl

theorem runFirst_rowsum (c : Dev nD) (i : grid0.Coords) (arg2 : Memref sig .tc .vmem S16x512x32 .f32) (harg2 : arg2.IsWhole) (arg3 : Memref sig .tc .vmem S16x4x32 .f32) (harg3 : arg3.IsWhole) (arg4 : Memref sig .tc .vmem S16x4 .f32) (harg4 : arg4.IsWhole) (arg5 : Memref sig .tc .vmem S16x4x8192 .f32) (harg5 : arg5.IsWhole) (arg6 : Memref sig .tc .vmem S16x4x8192 .f32) (harg6 : arg6.IsWhole) (arg7 : Memref sig .tc .vmem S16x4 .f32) (harg7 : arg7.IsWhole) (hc0 : isFirst i) (hc1 : ¬isLast i)
    (x0 : Vec F S16x512x32 .f32) (x1 : Vec F S16x4x32 .f32) (x2 : Vec F S16x4 .f32) :
    (runFirst c i arg2 harg2 arg3 harg3 arg4 harg4 arg5 harg5 arg6 harg6 arg7 harg7 hc0 hc1 x0 x1 x2).2.1
      = [⟨Rect.unit (s := S16x4) ![0, 0] S16x4.size inb_S16x4_S16x4_0_0, accT x0 x1 x2 (k0_pay5 (F := F))⟩,
         ⟨Rect.unit (s := S16x4) ![0, 0] S16x4.size inb_S16x4_S16x4_0_0, k0_pay5 (F := F)⟩] := by
  unfold runFirst; dsimp only; sl_unfold_run_names
  simp only [View.readAt_eq_ld, harg2.read_unread, harg3.read_unread, harg4.read_unread,
    View.ld_unit_zero (S := S16x512x32) zeros3, View.ld_unit_zero (S := S16x4x32) zeros3, View.ld_unit_zero (S := S16x4) zeros2,
    View.readCov_unit_zero (S := S16x4) _ zeros2]
  rfl

theorem runLast_parked (c : Dev nD) (i : grid0.Coords) (arg2 : Memref sig .tc .vmem S16x512x32 .f32) (harg2 : arg2.IsWhole) (arg3 : Memref sig .tc .vmem S16x4x32 .f32) (harg3 : arg3.IsWhole) (arg4 : Memref sig .tc .vmem S16x4 .f32) (harg4 : arg4.IsWhole) (arg5 : Memref sig .tc .vmem S16x4x8192 .f32) (harg5 : arg5.IsWhole) (arg6 : Memref sig .tc .vmem S16x4x8192 .f32) (harg6 : arg6.IsWhole) (arg7 : Memref sig .tc .vmem S16x4 .f32) (harg7 : arg7.IsWhole) (hc0 : ¬isFirst i) (hc1 : isLast i)
    (x0 : Vec F S16x512x32 .f32) (x1 : Vec F S16x4x32 .f32) (x2 : Vec F S16x4 .f32) (xs1 : Vec F S16x4 .f32) (xs0 : Vec F S16x4x8192 .f32) :
    (runLast c i arg2 harg2 arg3 harg3 arg4 harg4 arg5 harg5 arg6 harg6 arg7 harg7 hc0 hc1 x0 x1 x2 xs1 xs0).2.1
      = [⟨Rect.unit (s := S16x4x8192) (k0_off1 i) S16x4x512.size (k0_off1_inb i), expT x0 x1 x2⟩] := by
  unfold runLast; dsimp only; sl_unfold_run_names
  simp only [View.readAt_eq_ld, harg2.read_unread, harg3.read_unread, harg4.read_unread,
    View.ld_unit_zero (S := S16x512x32) zeros3, View.ld_unit_zero (S := S16x4x32) zeros3, View.ld_unit_zero (S := S16x4) zeros2]
  rfl

theorem runLast_rowsum (c : Dev nD) (i : grid0.Coords) (arg2 : Memref sig .tc .vmem S16x512x32 .f32) (harg2 : arg2.IsWhole) (arg3 : Memref sig .tc .vmem S16x4x32 .f32) (harg3 : arg3.IsWhole) (arg4 : Memref sig .tc .vmem S16x4 .f32) (harg4 : arg4.IsWhole) (arg5 : Memref sig .tc .vmem S16x4x8192 .f32) (harg5 : arg5.IsWhole) (arg6 : Memref sig .tc .vmem S16x4x8192 .f32) (harg6 : arg6.IsWhole) (arg7 : Memref sig .tc .vmem S16x4 .f32) (harg7 : arg7.IsWhole) (hc0 : ¬isFirst i) (hc1 : isLast i)
    (x0 : Vec F S16x512x32 .f32) (x1 : Vec F S16x4x32 .f32) (x2 : Vec F S16x4 .f32) (xs1 : Vec F S16x4 .f32) (xs0 : Vec F S16x4x8192 .f32) :
    (runLast c i arg2 harg2 arg3 harg3 arg4 harg4 arg5 harg5 arg6 harg6 arg7 harg7 hc0 hc1 x0 x1 x2 xs1 xs0).2.2.1
      = [⟨Rect.unit (s := S16x4) ![0, 0] S16x4.size inb_S16x4_S16x4_0_0, accT x0 x1 x2 xs1⟩] := by
  unfold runLast; dsimp only; sl_unfold_run_names
  simp only [View.readAt_eq_ld, harg2.read_unread, harg3.read_unread, harg4.read_unread, harg7.read_unread,
    View.ld_unit_zero (S := S16x512x32) zeros3, View.ld_unit_zero (S := S16x4x32) zeros3, View.ld_unit_zero (S := S16x4) zeros2]
  rfl

/-- The one store of the last tile into the output's buffer: the parking scratch as this tile leaves it, over the
    accumulator as this tile leaves it. -/
theorem runLast_out (c : Dev nD) (i : grid0.Coords) (arg2 : Memref sig .tc .vmem S16x512x32 .f32) (harg2 : arg2.IsWhole) (arg3 : Memref sig .tc .vmem S16x4x32 .f32) (harg3 : arg3.IsWhole) (arg4 : Memref sig .tc .vmem S16x4 .f32) (harg4 : arg4.IsWhole) (arg5 : Memref sig .tc .vmem S16x4x8192 .f32) (harg5 : arg5.IsWhole) (arg6 : Memref sig .tc .vmem S16x4x8192 .f32) (harg6 : arg6.IsWhole) (arg7 : Memref sig .tc .vmem S16x4 .f32) (harg7 : arg7.IsWhole) (hc0 : ¬isFirst i) (hc1 : isLast i)
    (x0 : Vec F S16x512x32 .f32) (x1 : Vec F S16x4x32 .f32) (x2 : Vec F S16x4 .f32) (xs1 : Vec F S16x4 .f32) (xs0 : Vec F S16x4x8192 .f32) :
    (runLast c i arg2 harg2 arg3 harg3 arg4 harg4 arg5 harg5 arg6 harg6 arg7 harg7 hc0 hc1 x0 x1 x2 xs1 xs0).1
      = [⟨Rect.unit (s := S16x4x8192) ![0, 0, 0] S16x4x8192.size inb_S16x4x8192_S16x4x8192_0_0_0,
          k0_pay4 (arg6.view.read (Elt F) (arg6.view.writes (Elt F) (harg6.unread xs0)
            [(⟨Rect.unit (s := S16x4x8192) (k0_off1 i) S16x4x512.size (k0_off1_inb i), expT x0 x1 x2⟩ : View.Piece (Elt F) S16x4x8192 .f32)]))
            (accT x0 x1 x2 xs1)⟩] := by
  unfold runLast; dsimp only; sl_unfold_run_names
  simp only [View.readAt_eq_ld, harg2.read_unread, harg3.read_unread, harg4.read_unread, harg7.read_unread,
    View.ld_unit_zero (S := S16x512x32) zeros3, View.ld_unit_zero (S := S16x4x32) zeros3, View.ld_unit_zero (S := S16x4) zeros2,
    View.ld_unit_zero (S := S16x4x8192) zeros3, View.readCov_unit_zero (S := S16x4) _ zeros2]
  rfl

/-! ## The invariant and the proof data -/

/-- The region invariant before position `n`: what the launch hands over before the first point; afterwards the
    parking scratch at what point `n - 1` left from SOME entry contents, the accumulator at what it left, and the
    generator register at some state. -/
def Phi (c : Dev nD) : (n : ℕ) → n ≤ cfg0.N → sProp 𝕄
  | 0, _ => Pipeline.ΦA spec0 c
  | n + 1, hn => iprop(iprop((∃ d0, owns (c : Thread nD τ) parked fullShare (parkAt m c d0 n hn)) ∗ owns (c : Thread nD τ) rowsum fullShare (accAt m c n hn)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop((∃ d0, owns (c : Thread nD τ) parked fullShare (parkAt m c d0 n hn)) ∗ owns (c : Thread nD τ) rowsum fullShare (accAt m c n hn)) ∗ (∃ r, prngReg c r)) := rfl

theorem Phi_pos (c : Dev nD) (n : ℕ) (h : n ≤ cfg0.N) (hz : n ≠ 0) :
    Phi m c n h = iprop(iprop((∃ d0, owns (c : Thread nD τ) parked fullShare (parkAt m c d0 (n - 1) (by omega))) ∗ owns (c : Thread nD τ) rowsum fullShare (accAt m c (n - 1) (by omega))) ∗ (∃ r, prngReg c r)) := by
  cases n with
  | zero => exact absurd rfl hz
  | succ n => rfl

/-- The proof data of the pipeline on core `c`: the arrays as the region finds them; after the body each input's
    buffer at its block and the output's at `outAt` (which matters at the last tile of a batch block only: elsewhere
    the window is idle); the invariant `Phi`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

end Cert.Kernel.Body

end
-- ==== Proof.KB.ParkFull.lean ====
/-
  At the last tile of a batch block the parking scratch is the whole block of exponentials, whatever it held when
  the region was entered: tile `j` of the block was written at point `t - 15 + j` at offset `512 j` of the last
  axis, and no later point of the block writes there.
-/
import proofs.«428490_j68822555951213_3_alg».proof.Proof.KB.State

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Coordinate 1 of point `t` of the 16 × 16 grid is `t % 16`. -/
private theorem coords_one : ∀ t : Fin cfg0.N, ((grid0.coords t) 1).val = t.val % 16 :=
  (by decide +kernel : ∀ t : Fin grid0.N, ((grid0.coords t) 1).val = t.val % 16)

/-- An index whose last coordinate lies in slice `i 1` reads the tile just written, at the local index. -/
private theorem parkStep_of_mem (i : grid0.Coords) (e : FVec F S16x4x512 .f32) (d : Vec F S16x4x8192 .f32)
    (y : S16x4x8192.Idx) (hy : (y 2).val / 512 = (i 1).val) :
    parkStep i e d y
      = e (ValueIdx.ix3 (⟨(y 0).val, (y 0).isLt⟩ : Fin 16) (⟨(y 1).val, (y 1).isLt⟩ : Fin 4)
          (⟨(y 2).val % 512, Nat.mod_lt _ (by decide)⟩ : Fin 512)) := by
  unfold parkStep
  refine View.read_writes_cons_unit_of_mem (Val := Elt F) (s := S16x4x8192) (e := .f32) parked.view
    ((Memref.isWhole_whole cc0_scratch0).unread d) (off := k0_off1 i) (off' := ![0, 0, 512 * (i 1).val])
    (size := S16x4x512.size) (k0_off1_inb i) e [] y
    (ValueIdx.ix3 (⟨(y 0).val, (y 0).isLt⟩ : Fin 16) (⟨(y 1).val, (y 1).isLt⟩ : Fin 4)
      (⟨(y 2).val % 512, Nat.mod_lt _ (by decide)⟩ : Fin 512)) (k0_off1_eq i) ?_
  intro a
  match a with
  | ⟨0, _⟩ => exact (Nat.zero_add _).symm
  | ⟨1, _⟩ => exact (Nat.zero_add _).symm
  | ⟨2, _⟩ =>
    show (y 2).val = 512 * (i 1).val + (y 2).val % 512
    omega

/-- An index whose last coordinate lies outside slice `i 1` reads what the scratch held. -/
private theorem parkStep_of_not_mem (i : grid0.Coords) (e : FVec F S16x4x512 .f32) (d : Vec F S16x4x8192 .f32)
    (y : S16x4x8192.Idx) (hy : (y 2).val / 512 ≠ (i 1).val) : parkStep i e d y = d y := by
  unfold parkStep
  refine (View.read_writes_cons_unit_of_not_mem (Val := Elt F) (s := S16x4x8192) (e := .f32) parked.view
    ((Memref.isWhole_whole cc0_scratch0).unread d) (off := k0_off1 i) (off' := ![0, 0, 512 * (i 1).val])
    (size := S16x4x512.size) (k0_off1_inb i) e [] y (k0_off1_eq i) 2 ?_).trans ?_
  · show (y 2).val < 512 * (i 1).val ∨ 512 * (i 1).val + 512 ≤ (y 2).val
    omega
  · rw [View.writes_nil]
    exact congrFun (Memref.IsWhole.read_unread (Memref.isWhole_whole cc0_scratch0) d) y

/-- Tile `t % 16` of the block of point `t` is computed at point `t`. -/
private theorem tilePoint_self (t : Fin cfg0.N) : tilePoint t (t.val % 16) = t := by
  apply Fin.ext
  show t.val / 16 * 16 + t.val % 16 % 16 = t.val
  omega

/-- Points of one batch block have the same whole block of exponentials. -/
private theorem wholeExp_congr (c : Dev nD) (t t' : Fin cfg0.N) (h : t.val / 16 = t'.val / 16) :
    wholeExp m c t = wholeExp m c t' := by
  have hp : ∀ j, tilePoint t j = tilePoint t' j := fun j => Fin.ext (by
    show t.val / 16 * 16 + j % 16 = t'.val / 16 * 16 + j % 16
    rw [h])
  funext y
  unfold wholeExp
  rw [hp]

/-- After point `n` the slices `0 … n % 16` of the parking scratch hold the block's exponentials. -/
private theorem parkAt_inv (c : Dev nD) (d0 : Vec F S16x4x8192 .f32) :
    ∀ (n : ℕ) (hn : n < cfg0.N) (y : S16x4x8192.Idx), (y 2).val / 512 ≤ n % 16 →
      parkAt m c d0 n hn y = wholeExp m c ⟨n, hn⟩ y := by
  intro n
  induction n with
  | zero =>
    intro hn y hy
    have h1 := coords_one ⟨0, hn⟩
    have hmem : (y 2).val / 512 = ((grid0.coords ⟨0, hn⟩) 1).val := by
      rw [h1]; show (y 2).val / 512 = 0 % 16; omega
    show parkStep (grid0.coords ⟨0, hn⟩) (tileAt m c ⟨0, hn⟩) d0 y = _
    rw [parkStep_of_mem _ _ _ y hmem]
    unfold wholeExp
    rw [hmem, h1, tilePoint_self]
  | succ n ih =>
    intro hn y hy
    have h1 := coords_one ⟨n + 1, hn⟩
    show parkStep (grid0.coords ⟨n + 1, hn⟩) (tileAt m c ⟨n + 1, hn⟩) (parkAt m c d0 n (Nat.lt_of_succ_lt hn)) y = _
    by_cases hmem : (y 2).val / 512 = ((grid0.coords ⟨n + 1, hn⟩) 1).val
    · rw [parkStep_of_mem _ _ _ y hmem]
      unfold wholeExp
      rw [hmem, h1, tilePoint_self]
    · rw [parkStep_of_not_mem _ _ _ y hmem]
      have h2 : (y 2).val / 512 ≠ (n + 1) % 16 := fun hh => hmem (hh.trans h1.symm)
      rw [ih (Nat.lt_of_succ_lt hn) y (by omega)]
      exact congrFun (wholeExp_congr m c ⟨n, Nat.lt_of_succ_lt hn⟩ ⟨n + 1, hn⟩ (by
        show n / 16 = (n + 1) / 16
        omega)) y

theorem parkAt_eq_wholeExp (c : Dev nD) (d0 : Vec F S16x4x8192 .f32) (t : Fin cfg0.N) (h : t.val % 16 = 15) :
    parkAt m c d0 t.val t.isLt = wholeExp m c t := by
  funext y
  have hy : (y 2).val < 8192 := (y 2).isLt
  exact parkAt_inv m c d0 t.val t.isLt y (by omega)

end Cert.Kernel.Body

end
-- ==== Proof.KB.Body.lean ====
/-
  The body obligation of the pipeline, point by point, and the run.

  At a point the body is handed the three input blocks, the output's staging buffer, and — through the invariant —
  the two scratch buffers at what the point before left. By the point's case (first, middle or last tile of its
  batch block) one of the three runs applies; what it leaves in the scratch buffers is the next point's invariant,
  the output's buffer goes back untouched except at the last tile, where it is left at the whole block of
  exponentials over the row sums.
-/
import proofs.«428490_j68822555951213_3_alg».proof.Proof.KB.State
import proofs.«428490_j68822555951213_3_alg».proof.Proof.KB.ParkFull

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After a list of stores whose LAST covers the whole accumulator, it holds that store's value. -/
theorem read_rowsum_last {κ : Kind} {sp : Space} (v : View sig κ sp S16x4 .f32) (f : v.ty.Contents (Elt F))
    (w : S16x4.Idx → Elt F .f32) (L : List (View.Piece (Elt F) S16x4 .f32)) :
    v.read (Elt F) (v.writes (Elt F) f ((⟨Rect.unit (s := S16x4) ![0, 0] S16x4.size inb_S16x4_S16x4_0_0, w⟩ : View.Piece (Elt F) S16x4 .f32) :: L)) = w := by
  rw [View.read_writes_eq_canon _ _ _ (fun y => ⟨_, List.mem_cons_self, View.mem_set_unit_zero zeros2 inb_S16x4_S16x4_0_0 y⟩), View.canon_cons_unit_zero zeros2]

/-- The same for the output's staging buffer. -/
theorem read_out_last {κ : Kind} {sp : Space} (v : View sig κ sp S16x4x8192 .f32) (f : v.ty.Contents (Elt F))
    (w : S16x4x8192.Idx → Elt F .f32) (L : List (View.Piece (Elt F) S16x4x8192 .f32)) :
    v.read (Elt F) (v.writes (Elt F) f ((⟨Rect.unit (s := S16x4x8192) ![0, 0, 0] S16x4x8192.size inb_S16x4x8192_S16x4x8192_0_0_0, w⟩ : View.Piece (Elt F) S16x4x8192 .f32) :: L)) = w := by
  rw [View.read_writes_eq_canon _ _ _ (fun y => ⟨_, List.mem_cons_self, View.mem_set_unit_zero zeros3 inb_S16x4x8192_S16x4x8192_0_0_0 y⟩), View.canon_cons_unit_zero zeros3]

theorem parkAt_zero (c : Dev nD) (d0 : Vec F S16x4x8192 .f32) (t : Fin cfg0.N) (hz : t.val = 0) :
    parkAt m c d0 t.val t.isLt = parkStep (grid0.coords t) (tileAt m c t) d0 := by
  obtain ⟨n, hn⟩ := t
  cases n with
  | zero => rfl
  | succ n => exact absurd hz (Nat.succ_ne_zero n)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = Phi m c (t.val + 1) t.isLt from rfl, Phi_succ]
  have hN : t.val < 256 := lt_of_lt_of_eq t.isLt (show cfg0.N = 256 from N_0)
  by_cases h0 : t.val % 16 = 0
  · -- the first tile of a batch block
    have h1 : ¬ t.val % 16 = 15 := by omega
    rw [show (dats m 0 c).leavesExact 0 t = owns (c : Thread nD τ) (mem0 t) fullShare ((dats m 0 c).after 0 t) from by
      unfold Dat.leavesExact; rw [live0 t], after0]
    rw [show (dats m 0 c).leavesExact 1 t = owns (c : Thread nD τ) (mem1 t) fullShare ((dats m 0 c).after 1 t) from by
      unfold Dat.leavesExact; rw [live1 t], after1]
    rw [show (dats m 0 c).leavesExact 2 t = owns (c : Thread nD τ) (mem2 t) fullShare ((dats m 0 c).after 2 t) from by
      unfold Dat.leavesExact; rw [live2 t], after2]
    rw [Dat.leavesExact_idle (dats m 0 c) 3 t ((idle3_iff t).mpr h1) (Bool.eq_false_iff.mpr fun h => h1 ((flush0_3 t).mp h))]
    by_cases hz : t.val = 0
    · rw [Phi_castSucc m c t, Phi_zero m c _ _ hz, PhiA_eq]
      iintro ⟨⟨⟨⟨%d0, HS0⟩, HS1⟩, Hg⟩, Ho, ⟨%e0, H0⟩, ⟨%e1, H1⟩, ⟨%e2, H2⟩, ⟨%e3, H3⟩⟩
      iapply ((runFirst c (grid0.coords t) _ _ _ _ _ _ _ _ _ _ _ _ ((isFirst_iff t).mpr h0) (fun h => h1 ((isLast_iff t).mp h)) (iblk m c 0 t) (iblk m c 1 t) (iblk m c 2 t)).2.2 ((dats m 0 c).before 3 t e3) d0 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, ⟨%es1, HS1⟩⟩
      isplitl [HS0 HS1 Hg]
      · isplitl [HS0 HS1]
        · isplitl [HS0]
          · iexists d0; unfold owns; iexists _; isplitr
            swap; · iexact HS0
            ipureintro; rw [runFirst_parked, parkAt_zero m c d0 t hz]; rfl
          unfold owns; iexists _; isplitr
          swap; · iexact HS1
          ipureintro; rw [runFirst_rowsum, read_rowsum_last, accAt_first m c t h0]
        iexact Hg
      isplitl [Ho]; · iexact Ho
      isplitl [H0]; · iexact H0
      isplitl [H1]; · iexact H1
      isplitl [H2]; · iexact H2
      iexists e3; iexact H3
    · rw [Phi_castSucc m c t, Phi_pos m c _ _ hz]
      iintro ⟨⟨⟨⟨%d0, HS0⟩, HS1⟩, Hg⟩, Ho, ⟨%e0, H0⟩, ⟨%e1, H1⟩, ⟨%e2, H2⟩, ⟨%e3, H3⟩⟩
      iapply ((runFirst c (grid0.coords t) _ _ _ _ _ _ _ _ _ _ _ _ ((isFirst_iff t).mpr h0) (fun h => h1 ((isLast_iff t).mp h)) (iblk m c 0 t) (iblk m c 1 t) (iblk m c 2 t)).2.2 ((dats m 0 c).before 3 t e3) _ Set.univ _)
      isplitl [H0]; · iexact H0
      isplitl [H1]; · iexact H1
      isplitl [H2]; · iexact H2
      isplitl [H3]; · iexact H3
      isplitl [HS0]; · iexact HS0
      isplitl [HS1]; · iexists _; iexact HS1
      iintro ⟨H0, H1, H2, H3, HS0, ⟨%es1, HS1⟩⟩
      isplitl [HS0 HS1 Hg]
      · isplitl [HS0 HS1]
        · isplitl [HS0]
          · iexists d0; unfold owns; iexists _; isplitr
            swap; · iexact HS0
            ipureintro; rw [runFirst_parked, parkAt_later m c d0 t hz]; rfl
          unfold owns; iexists _; isplitr
          swap; · iexact HS1
          ipureintro; rw [runFirst_rowsum, read_rowsum_last, accAt_first m c t h0]
        iexact Hg
      isplitl [Ho]; · iexact Ho
      isplitl [H0]; · iexact H0
      isplitl [H1]; · iexact H1
      isplitl [H2]; · iexact H2
      iexists e3; iexact H3
  · have hz : t.val ≠ 0 := fun e => h0 (by rw [e])
    by_cases h1 : t.val % 16 = 15
    · -- the last tile of a batch block
      rw [show (dats m 0 c).leavesExact 0 t = owns (c : Thread nD τ) (mem0 t) fullShare ((dats m 0 c).after 0 t) from by
        unfold Dat.leavesExact; rw [live0 t], after0]
      rw [show (dats m 0 c).leavesExact 1 t = owns (c : Thread nD τ) (mem1 t) fullShare ((dats m 0 c).after 1 t) from by
        unfold Dat.leavesExact; rw [live1 t], after1]
      rw [show (dats m 0 c).leavesExact 2 t = owns (c : Thread nD τ) (mem2 t) fullShare ((dats m 0 c).after 2 t) from by
        unfold Dat.leavesExact; rw [live2 t], after2]
      rw [show (dats m 0 c).leavesExact 3 t = owns (c : Thread nD τ) (mem3 t) fullShare ((dats m 0 c).after 3 t) from by
        unfold Dat.leavesExact; rw [show cfg0.idle 3 (grid0.coords t) = false from Bool.eq_false_iff.mpr fun h => (idle3_iff t).mp h h1], after3]
      rw [Phi_castSucc m c t, Phi_pos m c _ _ hz]
      iintro ⟨⟨⟨⟨%d0, HS0⟩, HS1⟩, Hg⟩, Ho, ⟨%e0, H0⟩, ⟨%e1, H1⟩, ⟨%e2, H2⟩, ⟨%e3, H3⟩⟩
      iapply ((runLast c (grid0.coords t) _ _ _ _ _ _ _ _ _ _ _ _ (fun h => h0 ((isFirst_iff t).mp h)) ((isLast_iff t).mpr h1) (iblk m c 0 t) (iblk m c 1 t) (iblk m c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%f3, H3⟩, HS0, ⟨%es1, HS1⟩⟩
      isplitl [HS0 HS1 Hg]
      · isplitl [HS0 HS1]
        · isplitl [HS0]
          · iexists d0; unfold owns; iexists _; isplitr
            swap; · iexact HS0
            ipureintro; rw [runLast_parked, parkAt_later m c d0 t hz]; rfl
          unfold owns; iexists _; isplitr
          swap; · iexact HS1
          ipureintro; rw [runLast_rowsum, read_rowsum_last, accAt_later m c t h0]
        iexact Hg
      isplitl [Ho]; · iexact Ho
      isplitl [H0]; · iexact H0
      isplitl [H1]; · iexact H1
      isplitl [H2]; · iexact H2
      unfold owns; iexists _; isplitr
      swap; · iexact H3
      ipureintro
      rw [runLast_out, read_out_last]
      unfold outAt
      rw [← parkAt_eq_wholeExp m c d0 t h1, parkAt_later m c d0 t hz, accAt_later m c t h0]
      rfl
    · -- a middle tile
      rw [show (dats m 0 c).leavesExact 0 t = owns (c : Thread nD τ) (mem0 t) fullShare ((dats m 0 c).after 0 t) from by
        unfold Dat.leavesExact; rw [live0 t], after0]
      rw [show (dats m 0 c).leavesExact 1 t = owns (c : Thread nD τ) (mem1 t) fullShare ((dats m 0 c).after 1 t) from by
        unfold Dat.leavesExact; rw [live1 t], after1]
      rw [show (dats m 0 c).leavesExact 2 t = owns (c : Thread nD τ) (mem2 t) fullShare ((dats m 0 c).after 2 t) from by
        unfold Dat.leavesExact; rw [live2 t], after2]
      rw [Dat.leavesExact_idle (dats m 0 c) 3 t ((idle3_iff t).mpr h1) (Bool.eq_false_iff.mpr fun h => h1 ((flush0_3 t).mp h))]
      rw [Phi_castSucc m c t, Phi_pos m c _ _ hz]
      iintro ⟨⟨⟨⟨%d0, HS0⟩, HS1⟩, Hg⟩, Ho, ⟨%e0, H0⟩, ⟨%e1, H1⟩, ⟨%e2, H2⟩, ⟨%e3, H3⟩⟩
      iapply ((runMid c (grid0.coords t) _ _ _ _ _ _ _ _ _ _ _ _ (fun h => h0 ((isFirst_iff t).mp h)) (fun h => h1 ((isLast_iff t).mp h)) (iblk m c 0 t) (iblk m c 1 t) (iblk m c 2 t) _).2.2 ((dats m 0 c).before 3 t e3) _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, ⟨%es1, HS1⟩⟩
      isplitl [HS0 HS1 Hg]
      · isplitl [HS0 HS1]
        · isplitl [HS0]
          · iexists d0; unfold owns; iexists _; isplitr
            swap; · iexact HS0
            ipureintro; rw [runMid_parked, parkAt_later m c d0 t hz]; rfl
          unfold owns; iexists _; isplitr
          swap; · iexact HS1
          ipureintro; rw [runMid_rowsum, read_rowsum_last, accAt_later m c t h0]
        iexact Hg
      isplitl [Ho]; · iexact Ho
      isplitl [H0]; · iexact H0
      isplitl [H1]; · iexact H1
      isplitl [H2]; · iexact H2
      iexists e3; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the invariant gives it back: what the scratch buffers hold is forgotten. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 256 := N_0; omega), PhiA_eq]
  iintro ⟨⟨⟨%d0, HS0⟩, HS1⟩, Hg⟩
  isplitl [HS0 HS1]
  · isplitl [HS0]
    · iexists _; iexact HS0
    iexists _; iexact HS1
  iexact Hg

/-- THE RUN: every weakly fair execution of @main terminates, every windowed array ends at what the write-backs
    left in it (`Dat.arrAt`), every other unscoped buffer as it was. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KI.Pay.lean ====
/-
  The two values a grid point computes from its three input blocks: the tile of exponentials it parks in the
  scratch, and the running row sum it leaves in the accumulator, given what the accumulator held.
-/
import proofs.«428490_j68822555951213_3_alg».proof.Proof.Gen.KernelIdeal.Skeleton

noncomputable section

namespace Cert.KernelIdeal.Body

open Cert.KernelIdeal Cert.KernelIdeal.Gen Idealize.ShloMosaic Idealize.SL.Sem

variable {F : FTy → Type} [FloatOps F]

/-- The tile `exp (sharp)` of a point, from its memory block `x0`, key block `x1` and strength block `x2`. -/
def expT (x0 : Vec F S16x512x32 .f32) (x1 : Vec F S16x4x32 .f32) (x2 : Vec F S16x4 .f32) : FVec F S16x4x512 .f32 :=
  k0_pay2 (k0_pay6 x0 x1) (k0_pay7 x2) (k0_pay9 x2) (k0_pay10 x2) (k0_pay11 x2)

/-- The accumulator after the point: what it held, `a`, plus the tile's row sums. -/
def accT (x0 : Vec F S16x512x32 .f32) (x1 : Vec F S16x4x32 .f32) (x2 : Vec F S16x4 .f32) (a : Vec F S16x4 .f32) : FVec F S16x4 .f32 :=
  k0_pay3 (k0_pay6 x0 x1) (k0_pay7 x2) (k0_pay9 x2) (k0_pay10 x2) (k0_pay11 x2) a

end Cert.KernelIdeal.Body

end
-- ==== Proof.KI.Base.lean ====
/-
  What the three runs of the kernel body share. A grid point `t` of the 16 × 16 grid is batch block `t / 16` and
  memory tile `t % 16`: the body resets the row-sum accumulator at tile 0 and writes the normalised block out at
  tile 15, so a point is in one of three cases, decided here in closed form; and the memrefs the pipeline calls the
  body with at a point, with the two scratch buffers the kernel keeps for itself.
-/
import proofs.«428490_j68822555951213_3_alg».proof.Proof.Gen.KernelIdeal.Launch
import proofs.«428490_j68822555951213_3_alg».proof.Proof.Gen.KernelIdeal.Skeleton
import proofs.«428490_j68822555951213_3_alg».proof.Proof.Gen.KernelIdeal.Points
import proofs.«428490_j68822555951213_3_alg».proof.Proof.Gen.KernelIdeal.Frame
import proofs.«428490_j68822555951213_3_alg».proof.Proof.KI.Pay
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first memory tile of its batch block (`pl.when(j == 0)`). -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 16 = 0 :=
  (by decide +kernel : ∀ t : Fin grid0.N, isFirst (grid0.coords t) ↔ t.val % 16 = 0)

/-- The point is the last memory tile of its batch block (`pl.when(j == n_j - 1)`). -/
abbrev isLast (i : grid0.Coords) : Prop := k0_cond2 i = 1#1
theorem isLast_iff : ∀ t : Fin cfg0.N, isLast (grid0.coords t) ↔ t.val % 16 = 15 :=
  (by decide +kernel : ∀ t : Fin grid0.N, isLast (grid0.coords t) ↔ t.val % 16 = 15)

/-- The inputs' windows are live at every point; the output's is idle except at the last tile of a block. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem idle3_iff : ∀ t : Fin cfg0.N, cfg0.idle 3 (grid0.coords t) = true ↔ ¬ t.val % 16 = 15 :=
  (by decide +kernel : ∀ t : Fin grid0.N, cfg0.idle 3 (grid0.coords t) = true ↔ ¬ t.val % 16 = 15)

/-- Each window's current staging memref at point `t`, as the pipeline passes it to the body. -/
abbrev mem0 (t : Fin cfg0.N) : Memref sig .tc .vmem S16x512x32 .f32 := win0_0.stage (cfg0.slots t 0)
abbrev hmem0 (t : Fin cfg0.N) : (mem0 t).IsWhole := hstage0_0 ((cfg0.slots t 0).cast nbuf0_0)
abbrev mem1 (t : Fin cfg0.N) : Memref sig .tc .vmem S16x4x32 .f32 := win0_1.stage (cfg0.slots t 1)
abbrev hmem1 (t : Fin cfg0.N) : (mem1 t).IsWhole := hstage0_1 ((cfg0.slots t 1).cast nbuf0_1)
abbrev mem2 (t : Fin cfg0.N) : Memref sig .tc .vmem S16x4 .f32 := win0_2.stage (cfg0.slots t 2)
abbrev hmem2 (t : Fin cfg0.N) : (mem2 t).IsWhole := hstage0_2 ((cfg0.slots t 2).cast nbuf0_2)
abbrev mem3 (t : Fin cfg0.N) : Memref sig .tc .vmem S16x4x8192 .f32 := win0_3.stage (cfg0.slots t 3)
abbrev hmem3 (t : Fin cfg0.N) : (mem3 t).IsWhole := hstage0_3 ((cfg0.slots t 3).cast nbuf0_3)
/-- The scratch that parks the exponentials of a batch block, one tile per point, and the row-sum accumulator. -/
abbrev parked : Memref sig .tc .vmem S16x4x8192 .f32 := Memref.whole cc0_scratch0
abbrev rowsum : Memref sig .tc .vmem S16x4 .f32 := Memref.whole cc0_scratch1

/-- What the launch hands the region besides the windows: the two scratch buffers at some contents and the
    generator register at some state. -/
theorem PhiA_eq (c : Dev nD) :
    (Pipeline.ΦA spec0 c : sProp 𝕄)
      = iprop(iprop((∃ d, owns (c : Thread nD τ) parked fullShare d) ∗ (∃ d, owns (c : Thread nD τ) rowsum fullShare d)) ∗ (∃ r, prngReg c r)) := by
  unfold Pipeline.ΦA; rw [scopedRest0_eq]; simp only [parked, rowsum, owns_whole]; try rfl

end Cert.KernelIdeal.Body

end
-- ==== Proof.KI.RunMid.lean ====
/-
  The body at a MIDDLE tile of a batch block (neither reset nor write-out): on whole memrefs holding the three
  input blocks, the output's staging buffer at any contents `x3`, the parking scratch at `xs0` and the accumulator
  at `xs1`, it runs to a state with the inputs and the output's buffer as they were, the scratch with this tile
  written over `xs0`, and the accumulator overwritten. The lists of stores are found by the run itself.
-/
import proofs.«428490_j68822555951213_3_alg».proof.Proof.KI.Base

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runMid (c : Dev nD) (i : grid0.Coords) (arg2 : Memref sig .tc .vmem S16x512x32 .f32) (harg2 : arg2.IsWhole) (arg3 : Memref sig .tc .vmem S16x4x32 .f32) (harg3 : arg3.IsWhole) (arg4 : Memref sig .tc .vmem S16x4 .f32) (harg4 : arg4.IsWhole) (arg5 : Memref sig .tc .vmem S16x4x8192 .f32) (harg5 : arg5.IsWhole) (arg6 : Memref sig .tc .vmem S16x4x8192 .f32) (harg6 : arg6.IsWhole) (arg7 : Memref sig .tc .vmem S16x4 .f32) (harg7 : arg7.IsWhole) (hc0 : ¬isFirst i) (hc1 : ¬isLast i)
    (x0 : Vec F S16x512x32 .f32) (x1 : Vec F S16x4x32 .f32) (x2 : Vec F S16x4 .f32) (xs1 : Vec F S16x4 .f32) :
    Σ' (LS0 : List (View.Piece (Elt F) S16x4x8192 .f32)), { LS1 : List (View.Piece (Elt F) S16x4 .f32) //
      ∀ (x3 xs0 : Vec F S16x4x8192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (arg6.view.loc (c : Thread nD τ) ↦[arg6.view.set]{fullShare} arg6.view.writes (Elt F) (harg6.unread xs0) LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, ?_, fun x3 xs0 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexact HS0
    iexists _; iexact HS1

end Cert.KernelIdeal.Body

end
-- ==== Proof.KI.RunFirst.lean ====
/-
  The body at the FIRST tile of a batch block: as at a middle tile, except that the accumulator, handed over at
  any contents, is reset to zero before this tile's row sums are added.
-/
import proofs.«428490_j68822555951213_3_alg».proof.Proof.KI.RunMid

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runFirst (c : Dev nD) (i : grid0.Coords) (arg2 : Memref sig .tc .vmem S16x512x32 .f32) (harg2 : arg2.IsWhole) (arg3 : Memref sig .tc .vmem S16x4x32 .f32) (harg3 : arg3.IsWhole) (arg4 : Memref sig .tc .vmem S16x4 .f32) (harg4 : arg4.IsWhole) (arg5 : Memref sig .tc .vmem S16x4x8192 .f32) (harg5 : arg5.IsWhole) (arg6 : Memref sig .tc .vmem S16x4x8192 .f32) (harg6 : arg6.IsWhole) (arg7 : Memref sig .tc .vmem S16x4 .f32) (harg7 : arg7.IsWhole) (hc0 : isFirst i) (hc1 : ¬isLast i)
    (x0 : Vec F S16x512x32 .f32) (x1 : Vec F S16x4x32 .f32) (x2 : Vec F S16x4 .f32) :
    Σ' (LS0 : List (View.Piece (Elt F) S16x4x8192 .f32)), { LS1 : List (View.Piece (Elt F) S16x4 .f32) //
      ∀ (x3 xs0 : Vec F S16x4x8192 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xs0 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (arg6.view.loc (c : Thread nD τ) ↦[arg6.view.set]{fullShare} arg6.view.writes (Elt F) (harg6.unread xs0) LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, ?_, fun x3 xs0 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexact HS0
    iexists _; iexact HS1

end Cert.KernelIdeal.Body

end
-- ==== Proof.KI.RunLast.lean ====
/-
  The body at the LAST tile of a batch block: this tile is parked and its row sums added as at a middle tile, and
  then the whole parking scratch is read back, divided by the accumulator, and stored over the output's staging
  buffer (handed over at any contents).
-/
import proofs.«428490_j68822555951213_3_alg».proof.Proof.KI.RunFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def runLast (c : Dev nD) (i : grid0.Coords) (arg2 : Memref sig .tc .vmem S16x512x32 .f32) (harg2 : arg2.IsWhole) (arg3 : Memref sig .tc .vmem S16x4x32 .f32) (harg3 : arg3.IsWhole) (arg4 : Memref sig .tc .vmem S16x4 .f32) (harg4 : arg4.IsWhole) (arg5 : Memref sig .tc .vmem S16x4x8192 .f32) (harg5 : arg5.IsWhole) (arg6 : Memref sig .tc .vmem S16x4x8192 .f32) (harg6 : arg6.IsWhole) (arg7 : Memref sig .tc .vmem S16x4 .f32) (harg7 : arg7.IsWhole) (hc0 : ¬isFirst i) (hc1 : isLast i)
    (x0 : Vec F S16x512x32 .f32) (x1 : Vec F S16x4x32 .f32) (x2 : Vec F S16x4 .f32) (xs1 : Vec F S16x4 .f32) (xs0 : Vec F S16x4x8192 .f32) :
    Σ' (L3 : List (View.Piece (Elt F) S16x4x8192 .f32)) (LS0 : List (View.Piece (Elt F) S16x4x8192 .f32)), { LS1 : List (View.Piece (Elt F) S16x4 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (arg6.view.loc (c : Thread nD τ) ↦[arg6.view.set]{fullShare} arg6.view.writes (Elt F) (harg6.unread xs0) LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__fused_kernel i arg2 harg2 arg3 harg3 arg4 harg4 arg5 harg5 arg6 harg6 arg7 harg7) K } := by
  refine ⟨?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexact HS0
    iexists _; iexact HS1

end Cert.KernelIdeal.Body

end
-- ==== Proof.KI.State.lean ====
/-
  What the kernel's two scratch buffers hold after each grid point, and the proof data of the pipeline.

  The parking scratch after point `n` is the tile of point `n` written at its offset over what the scratch held
  after point `n - 1` (over its entry contents `d0` at the first point). The accumulator after point `n` is this
  tile's row sums added to what it held — to zero at the first tile of a batch block. At the last tile of a block
  every one of the 16 slices of the parking scratch has been written since the block began, so the scratch is the
  whole block of exponentials `wholeExp`, a function of the input blocks alone, and the output's staging buffer is
  left at `wholeExp` divided by the accumulator.
-/
import proofs.«428490_j68822555951213_3_alg».proof.Proof.KI.RunLast
import Idealize.ShloMosaic.Lib.Pipeline.Value
import Idealize.ShloMosaic.Lib.WritesUnit
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zeros2 : (![0, 0] : Fin 2 → Nat) = fun _ => 0 := by
  funext a; match a with | ⟨0, _⟩ => rfl | ⟨1, _⟩ => rfl
theorem zeros3 : (![0, 0, 0] : Fin 3 → Nat) = fun _ => 0 := by
  funext a; match a with | ⟨0, _⟩ => rfl | ⟨1, _⟩ => rfl | ⟨2, _⟩ => rfl

/-! ## The input blocks and the tile of a point -/

/-- The three input blocks of point `t`, at their literal types. -/
abbrev memBlk (c : Dev nD) (t : Fin cfg0.N) : Vec F S16x512x32 .f32 := iblk m c 0 t
abbrev keyBlk (c : Dev nD) (t : Fin cfg0.N) : Vec F S16x4x32 .f32 := iblk m c 1 t
abbrev strBlk (c : Dev nD) (t : Fin cfg0.N) : Vec F S16x4 .f32 := iblk m c 2 t

/-- The tile of exponentials point `t` computes. -/
def tileAt (c : Dev nD) (t : Fin cfg0.N) : FVec F S16x4x512 .f32 := expT (memBlk m c t) (keyBlk m c t) (strBlk m c t)

/-- A tile `e` written into the parking scratch at the offset of the point with coordinates `i`, over contents `d`. -/
def parkStep (i : grid0.Coords) (e : FVec F S16x4x512 .f32) (d : Vec F S16x4x8192 .f32) : Vec F S16x4x8192 .f32 :=
  parked.view.read (Elt F) (parked.view.writes (Elt F) ((Memref.isWhole_whole cc0_scratch0).unread d)
    [(⟨Rect.unit (s := S16x4x8192) (k0_off1 i) S16x4x512.size (k0_off1_inb i), e⟩ : View.Piece (Elt F) S16x4x8192 .f32)])

/-- The parking scratch after point `n`, from contents `d0` before the first point. -/
def parkAt (c : Dev nD) (d0 : Vec F S16x4x8192 .f32) : (n : ℕ) → n < cfg0.N → Vec F S16x4x8192 .f32
  | 0, hn => parkStep (grid0.coords ⟨0, hn⟩) (tileAt m c ⟨0, hn⟩) d0
  | n + 1, hn => parkStep (grid0.coords ⟨n + 1, hn⟩) (tileAt m c ⟨n + 1, hn⟩) (parkAt c d0 n (Nat.lt_of_succ_lt hn))

/-- The accumulator after point `n`: reset at the first tile of each batch block. -/
def accAt (c : Dev nD) : (n : ℕ) → n < cfg0.N → Vec F S16x4 .f32
  | 0, hn => accT (memBlk m c ⟨0, hn⟩) (keyBlk m c ⟨0, hn⟩) (strBlk m c ⟨0, hn⟩) (k0_pay5 (F := F))
  | n + 1, hn =>
    if (n + 1) % 16 = 0 then accT (memBlk m c ⟨n + 1, hn⟩) (keyBlk m c ⟨n + 1, hn⟩) (strBlk m c ⟨n + 1, hn⟩) (k0_pay5 (F := F))
    else accT (memBlk m c ⟨n + 1, hn⟩) (keyBlk m c ⟨n + 1, hn⟩) (strBlk m c ⟨n + 1, hn⟩) (accAt c n (Nat.lt_of_succ_lt hn))

theorem accAt_first (c : Dev nD) (t : Fin cfg0.N) (h0 : t.val % 16 = 0) :
    accAt m c t.val t.isLt = accT (memBlk m c t) (keyBlk m c t) (strBlk m c t) (k0_pay5 (F := F)) := by
  obtain ⟨n, hn⟩ := t
  cases n with
  | zero => rfl
  | succ n => exact if_pos h0

theorem accAt_later (c : Dev nD) (t : Fin cfg0.N) (h0 : ¬ t.val % 16 = 0) :
    accAt m c t.val t.isLt = accT (memBlk m c t) (keyBlk m c t) (strBlk m c t)
      (accAt m c (t.val - 1) (Nat.lt_of_le_of_lt (Nat.sub_le _ _) t.isLt)) := by
  obtain ⟨n, hn⟩ := t
  cases n with
  | zero => exact absurd (Nat.zero_mod _) h0
  | succ n => exact if_neg h0

theorem parkAt_later (c : Dev nD) (d0 : Vec F S16x4x8192 .f32) (t : Fin cfg0.N) (hz : t.val ≠ 0) :
    parkAt m c d0 t.val t.isLt = parkStep (grid0.coords t) (tileAt m c t)
      (parkAt m c d0 (t.val - 1) (Nat.lt_of_le_of_lt (Nat.sub_le _ _) t.isLt)) := by
  obtain ⟨n, hn⟩ := t
  cases n with
  | zero => exact absurd rfl hz
  | succ n => rfl

/-! ## The whole block of exponentials -/

/-- The point of tile `j` in the batch block of point `t`. -/
def tilePoint (t : Fin cfg0.N) (j : ℕ) : Fin cfg0.N :=
  ⟨t.val / 16 * 16 + j % 16, by
    have h1 := t.isLt
    have h2 : cfg0.N = 256 := N_0
    omega⟩

/-- The exponentials of the whole batch block of point `t`: memory row `M` is row `M % 512` of tile `M / 512`. -/
def wholeExp (c : Dev nD) (t : Fin cfg0.N) : Vec F S16x4x8192 .f32 := fun y =>
  tileAt m c (tilePoint t ((y 2).val / 512))
    (ValueIdx.ix3 (⟨(y 0).val, (y 0).isLt⟩ : Fin 16) (⟨(y 1).val, (y 1).isLt⟩ : Fin 4) (⟨(y 2).val % 512, Nat.mod_lt _ (by decide)⟩ : Fin 512))

/-- What the last tile of a batch block leaves in the output's staging buffer. -/
def outAt (c : Dev nD) (t : Fin cfg0.N) : FVec F S16x4x8192 .f32 := k0_pay4 (wholeExp m c t) (accAt m c t.val t.isLt)

/-! ## What each run leaves, in these terms -/

theorem runMid_parked (c : Dev nD) (i : grid0.Coords) (arg2 : Memref sig .tc .vmem S16x512x32 .f32) (harg2 : arg2.IsWhole) (arg3 : Memref sig .tc .vmem S16x4x32 .f32) (harg3 : arg3.IsWhole) (arg4 : Memref sig .tc .vmem S16x4 .f32) (harg4 : arg4.IsWhole) (arg5 : Memref sig .tc .vmem S16x4x8192 .f32) (harg5 : arg5.IsWhole) (arg6 : Memref sig .tc .vmem S16x4x8192 .f32) (harg6 : arg6.IsWhole) (arg7 : Memref sig .tc .vmem S16x4 .f32) (harg7 : arg7.IsWhole) (hc0 : ¬isFirst i) (hc1 : ¬isLast i)
    (x0 : Vec F S16x512x32 .f32) (x1 : Vec F S16x4x32 .f32) (x2 : Vec F S16x4 .f32) (xs1 : Vec F S16x4 .f32) :
    (runMid c i arg2 harg2 arg3 harg3 arg4 harg4 arg5 harg5 arg6 harg6 arg7 harg7 hc0 hc1 x0 x1 x2 xs1).1
      = [⟨Rect.unit (s := S16x4x8192) (k0_off1 i) S16x4x512.size (k0_off1_inb i), expT x0 x1 x2⟩] := by
  unfold runMid; dsimp only; sl_unfold_run_names
  simp only [View.readAt_eq_ld, harg2.read_unread, harg3.read_unread, harg4.read_unread,
    View.ld_unit_zero (S := S16x512x32) zeros3, View.ld_unit_zero (S := S16x4x32) zeros3, View.ld_unit_zero (S := S16x4) zeros2]
  rfl

theorem runMid_rowsum (c : Dev nD) (i : grid0.Coords) (arg2 : Memref sig .tc .vmem S16x512x32 .f32) (harg2 : arg2.IsWhole) (arg3 : Memref sig .tc .vmem S16x4x32 .f32) (harg3 : arg3.IsWhole) (arg4 : Memref sig .tc .vmem S16x4 .f32) (harg4 : arg4.IsWhole) (arg5 : Memref sig .tc .vmem S16x4x8192 .f32) (harg5 : arg5.IsWhole) (arg6 : Memref sig .tc .vmem S16x4x8192 .f32) (harg6 : arg6.IsWhole) (arg7 : Memref sig .tc .vmem S16x4 .f32) (harg7 : arg7.IsWhole) (hc0 : ¬isFirst i) (hc1 : ¬isLast i)
    (x0 : Vec F S16x512x32 .f32) (x1 : Vec F S16x4x32 .f32) (x2 : Vec F S16x4 .f32) (xs1 : Vec F S16x4 .f32) :
    (runMid c i arg2 harg2 arg3 harg3 arg4 harg4 arg5 harg5 arg6 harg6 arg7 harg7 hc0 hc1 x0 x1 x2 xs1).2.1
      = [⟨Rect.unit (s := S16x4) ![0, 0] S16x4.size inb_S16x4_S16x4_0_0, accT x0 x1 x2 xs1⟩] := by
  unfold runMid; dsimp only; sl_unfold_run_names
  simp only [View.readAt_eq_ld, harg2.read_unread, harg3.read_unread, harg4.read_unread, harg7.read_unread,
    View.ld_unit_zero (S := S16x512x32) zeros3, View.ld_unit_zero (S := S16x4x32) zeros3, View.ld_unit_zero (S := S16x4) zeros2]
  rfl

theorem runFirst_parked (c : Dev nD) (i : grid0.Coords) (arg2 : Memref sig .tc .vmem S16x512x32 .f32) (harg2 : arg2.IsWhole) (arg3 : Memref sig .tc .vmem S16x4x32 .f32) (harg3 : arg3.IsWhole) (arg4 : Memref sig .tc .vmem S16x4 .f32) (harg4 : arg4.IsWhole) (arg5 : Memref sig .tc .vmem S16x4x8192 .f32) (harg5 : arg5.IsWhole) (arg6 : Memref sig .tc .vmem S16x4x8192 .f32) (harg6 : arg6.IsWhole) (arg7 : Memref sig .tc .vmem S16x4 .f32) (harg7 : arg7.IsWhole) (hc0 : isFirst i) (hc1 : ¬isLast i)
    (x0 : Vec F S16x512x32 .f32) (x1 : Vec F S16x4x32 .f32) (x2 : Vec F S16x4 .f32) :
    (runFirst c i arg2 harg2 arg3 harg3 arg4 harg4 arg5 harg5 arg6 harg6 arg7 harg7 hc0 hc1 x0 x1 x2).1
      = [⟨Rect.unit (s := S16x4x8192) (k0_off1 i) S16x4x512.size (k0_off1_inb i), expT x0 x1 x2⟩] := by
  unfold runFirst; dsimp only; sl_unfold_run_names
  simp only [View.readAt_eq_ld, harg2.read_unread, harg3.read_unread, harg4.read_unread,
    View.ld_unit_zero (S := S16x512x32) zeros3, View.ld_unit_zero (S := S16x4x32) zeros3, View.ld_unit_zero (S := S16x4) zeros2]
  rfl

theorem runFirst_rowsum (c : Dev nD) (i : grid0.Coords) (arg2 : Memref sig .tc .vmem S16x512x32 .f32) (harg2 : arg2.IsWhole) (arg3 : Memref sig .tc .vmem S16x4x32 .f32) (harg3 : arg3.IsWhole) (arg4 : Memref sig .tc .vmem S16x4 .f32) (harg4 : arg4.IsWhole) (arg5 : Memref sig .tc .vmem S16x4x8192 .f32) (harg5 : arg5.IsWhole) (arg6 : Memref sig .tc .vmem S16x4x8192 .f32) (harg6 : arg6.IsWhole) (arg7 : Memref sig .tc .vmem S16x4 .f32) (harg7 : arg7.IsWhole) (hc0 : isFirst i) (hc1 : ¬isLast i)
    (x0 : Vec F S16x512x32 .f32) (x1 : Vec F S16x4x32 .f32) (x2 : Vec F S16x4 .f32) :
    (runFirst c i arg2 harg2 arg3 harg3 arg4 harg4 arg5 harg5 arg6 harg6 arg7 harg7 hc0 hc1 x0 x1 x2).2.1
      = [⟨Rect.unit (s := S16x4) ![0, 0] S16x4.size inb_S16x4_S16x4_0_0, accT x0 x1 x2 (k0_pay5 (F := F))⟩,
         ⟨Rect.unit (s := S16x4) ![0, 0] S16x4.size inb_S16x4_S16x4_0_0, k0_pay5 (F := F)⟩] := by
  unfold runFirst; dsimp only; sl_unfold_run_names
  simp only [View.readAt_eq_ld, harg2.read_unread, harg3.read_unread, harg4.read_unread,
    View.ld_unit_zero (S := S16x512x32) zeros3, View.ld_unit_zero (S := S16x4x32) zeros3, View.ld_unit_zero (S := S16x4) zeros2,
    View.readCov_unit_zero (S := S16x4) _ zeros2]
  rfl

theorem runLast_parked (c : Dev nD) (i : grid0.Coords) (arg2 : Memref sig .tc .vmem S16x512x32 .f32) (harg2 : arg2.IsWhole) (arg3 : Memref sig .tc .vmem S16x4x32 .f32) (harg3 : arg3.IsWhole) (arg4 : Memref sig .tc .vmem S16x4 .f32) (harg4 : arg4.IsWhole) (arg5 : Memref sig .tc .vmem S16x4x8192 .f32) (harg5 : arg5.IsWhole) (arg6 : Memref sig .tc .vmem S16x4x8192 .f32) (harg6 : arg6.IsWhole) (arg7 : Memref sig .tc .vmem S16x4 .f32) (harg7 : arg7.IsWhole) (hc0 : ¬isFirst i) (hc1 : isLast i)
    (x0 : Vec F S16x512x32 .f32) (x1 : Vec F S16x4x32 .f32) (x2 : Vec F S16x4 .f32) (xs1 : Vec F S16x4 .f32) (xs0 : Vec F S16x4x8192 .f32) :
    (runLast c i arg2 harg2 arg3 harg3 arg4 harg4 arg5 harg5 arg6 harg6 arg7 harg7 hc0 hc1 x0 x1 x2 xs1 xs0).2.1
      = [⟨Rect.unit (s := S16x4x8192) (k0_off1 i) S16x4x512.size (k0_off1_inb i), expT x0 x1 x2⟩] := by
  unfold runLast; dsimp only; sl_unfold_run_names
  simp only [View.readAt_eq_ld, harg2.read_unread, harg3.read_unread, harg4.read_unread,
    View.ld_unit_zero (S := S16x512x32) zeros3, View.ld_unit_zero (S := S16x4x32) zeros3, View.ld_unit_zero (S := S16x4) zeros2]
  rfl

theorem runLast_rowsum (c : Dev nD) (i : grid0.Coords) (arg2 : Memref sig .tc .vmem S16x512x32 .f32) (harg2 : arg2.IsWhole) (arg3 : Memref sig .tc .vmem S16x4x32 .f32) (harg3 : arg3.IsWhole) (arg4 : Memref sig .tc .vmem S16x4 .f32) (harg4 : arg4.IsWhole) (arg5 : Memref sig .tc .vmem S16x4x8192 .f32) (harg5 : arg5.IsWhole) (arg6 : Memref sig .tc .vmem S16x4x8192 .f32) (harg6 : arg6.IsWhole) (arg7 : Memref sig .tc .vmem S16x4 .f32) (harg7 : arg7.IsWhole) (hc0 : ¬isFirst i) (hc1 : isLast i)
    (x0 : Vec F S16x512x32 .f32) (x1 : Vec F S16x4x32 .f32) (x2 : Vec F S16x4 .f32) (xs1 : Vec F S16x4 .f32) (xs0 : Vec F S16x4x8192 .f32) :
    (runLast c i arg2 harg2 arg3 harg3 arg4 harg4 arg5 harg5 arg6 harg6 arg7 harg7 hc0 hc1 x0 x1 x2 xs1 xs0).2.2.1
      = [⟨Rect.unit (s := S16x4) ![0, 0] S16x4.size inb_S16x4_S16x4_0_0, accT x0 x1 x2 xs1⟩] := by
  unfold runLast; dsimp only; sl_unfold_run_names
  simp only [View.readAt_eq_ld, harg2.read_unread, harg3.read_unread, harg4.read_unread, harg7.read_unread,
    View.ld_unit_zero (S := S16x512x32) zeros3, View.ld_unit_zero (S := S16x4x32) zeros3, View.ld_unit_zero (S := S16x4) zeros2]
  rfl

/-- The one store of the last tile into the output's buffer: the parking scratch as this tile leaves it, over the
    accumulator as this tile leaves it. -/
theorem runLast_out (c : Dev nD) (i : grid0.Coords) (arg2 : Memref sig .tc .vmem S16x512x32 .f32) (harg2 : arg2.IsWhole) (arg3 : Memref sig .tc .vmem S16x4x32 .f32) (harg3 : arg3.IsWhole) (arg4 : Memref sig .tc .vmem S16x4 .f32) (harg4 : arg4.IsWhole) (arg5 : Memref sig .tc .vmem S16x4x8192 .f32) (harg5 : arg5.IsWhole) (arg6 : Memref sig .tc .vmem S16x4x8192 .f32) (harg6 : arg6.IsWhole) (arg7 : Memref sig .tc .vmem S16x4 .f32) (harg7 : arg7.IsWhole) (hc0 : ¬isFirst i) (hc1 : isLast i)
    (x0 : Vec F S16x512x32 .f32) (x1 : Vec F S16x4x32 .f32) (x2 : Vec F S16x4 .f32) (xs1 : Vec F S16x4 .f32) (xs0 : Vec F S16x4x8192 .f32) :
    (runLast c i arg2 harg2 arg3 harg3 arg4 harg4 arg5 harg5 arg6 harg6 arg7 harg7 hc0 hc1 x0 x1 x2 xs1 xs0).1
      = [⟨Rect.unit (s := S16x4x8192) ![0, 0, 0] S16x4x8192.size inb_S16x4x8192_S16x4x8192_0_0_0,
          k0_pay4 (arg6.view.read (Elt F) (arg6.view.writes (Elt F) (harg6.unread xs0)
            [(⟨Rect.unit (s := S16x4x8192) (k0_off1 i) S16x4x512.size (k0_off1_inb i), expT x0 x1 x2⟩ : View.Piece (Elt F) S16x4x8192 .f32)]))
            (accT x0 x1 x2 xs1)⟩] := by
  unfold runLast; dsimp only; sl_unfold_run_names
  simp only [View.readAt_eq_ld, harg2.read_unread, harg3.read_unread, harg4.read_unread, harg7.read_unread,
    View.ld_unit_zero (S := S16x512x32) zeros3, View.ld_unit_zero (S := S16x4x32) zeros3, View.ld_unit_zero (S := S16x4) zeros2,
    View.ld_unit_zero (S := S16x4x8192) zeros3, View.readCov_unit_zero (S := S16x4) _ zeros2]
  rfl

/-! ## The invariant and the proof data -/

/-- The region invariant before position `n`: what the launch hands over before the first point; afterwards the
    parking scratch at what point `n - 1` left from SOME entry contents, the accumulator at what it left, and the
    generator register at some state. -/
def Phi (c : Dev nD) : (n : ℕ) → n ≤ cfg0.N → sProp 𝕄
  | 0, _ => Pipeline.ΦA spec0 c
  | n + 1, hn => iprop(iprop((∃ d0, owns (c : Thread nD τ) parked fullShare (parkAt m c d0 n hn)) ∗ owns (c : Thread nD τ) rowsum fullShare (accAt m c n hn)) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop((∃ d0, owns (c : Thread nD τ) parked fullShare (parkAt m c d0 n hn)) ∗ owns (c : Thread nD τ) rowsum fullShare (accAt m c n hn)) ∗ (∃ r, prngReg c r)) := rfl

theorem Phi_pos (c : Dev nD) (n : ℕ) (h : n ≤ cfg0.N) (hz : n ≠ 0) :
    Phi m c n h = iprop(iprop((∃ d0, owns (c : Thread nD τ) parked fullShare (parkAt m c d0 (n - 1) (by omega))) ∗ owns (c : Thread nD τ) rowsum fullShare (accAt m c (n - 1) (by omega))) ∗ (∃ r, prngReg c r)) := by
  cases n with
  | zero => exact absurd rfl hz
  | succ n => rfl

/-- The proof data of the pipeline on core `c`: the arrays as the region finds them; after the body each input's
    buffer at its block and the output's at `outAt` (which matters at the last tile of a batch block only: elsewhere
    the window is idle); the invariant `Phi`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

end Cert.KernelIdeal.Body

end
-- ==== Proof.KI.ParkFull.lean ====
/-
  At the last tile of a batch block the parking scratch is the whole block of exponentials, whatever it held when
  the region was entered: tile `j` of the block was written at point `t - 15 + j` at offset `512 j` of the last
  axis, and no later point of the block writes there.
-/
import proofs.«428490_j68822555951213_3_alg».proof.Proof.KI.State

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Coordinate 1 of point `t` of the 16 × 16 grid is `t % 16`. -/
private theorem coords_one : ∀ t : Fin cfg0.N, ((grid0.coords t) 1).val = t.val % 16 :=
  (by decide +kernel : ∀ t : Fin grid0.N, ((grid0.coords t) 1).val = t.val % 16)

/-- An index whose last coordinate lies in slice `i 1` reads the tile just written, at the local index. -/
private theorem parkStep_of_mem (i : grid0.Coords) (e : FVec F S16x4x512 .f32) (d : Vec F S16x4x8192 .f32)
    (y : S16x4x8192.Idx) (hy : (y 2).val / 512 = (i 1).val) :
    parkStep i e d y
      = e (ValueIdx.ix3 (⟨(y 0).val, (y 0).isLt⟩ : Fin 16) (⟨(y 1).val, (y 1).isLt⟩ : Fin 4)
          (⟨(y 2).val % 512, Nat.mod_lt _ (by decide)⟩ : Fin 512)) := by
  unfold parkStep
  refine View.read_writes_cons_unit_of_mem (Val := Elt F) (s := S16x4x8192) (e := .f32) parked.view
    ((Memref.isWhole_whole cc0_scratch0).unread d) (off := k0_off1 i) (off' := ![0, 0, 512 * (i 1).val])
    (size := S16x4x512.size) (k0_off1_inb i) e [] y
    (ValueIdx.ix3 (⟨(y 0).val, (y 0).isLt⟩ : Fin 16) (⟨(y 1).val, (y 1).isLt⟩ : Fin 4)
      (⟨(y 2).val % 512, Nat.mod_lt _ (by decide)⟩ : Fin 512)) (k0_off1_eq i) ?_
  intro a
  match a with
  | ⟨0, _⟩ => exact (Nat.zero_add _).symm
  | ⟨1, _⟩ => exact (Nat.zero_add _).symm
  | ⟨2, _⟩ =>
    show (y 2).val = 512 * (i 1).val + (y 2).val % 512
    omega

/-- An index whose last coordinate lies outside slice `i 1` reads what the scratch held. -/
private theorem parkStep_of_not_mem (i : grid0.Coords) (e : FVec F S16x4x512 .f32) (d : Vec F S16x4x8192 .f32)
    (y : S16x4x8192.Idx) (hy : (y 2).val / 512 ≠ (i 1).val) : parkStep i e d y = d y := by
  unfold parkStep
  refine (View.read_writes_cons_unit_of_not_mem (Val := Elt F) (s := S16x4x8192) (e := .f32) parked.view
    ((Memref.isWhole_whole cc0_scratch0).unread d) (off := k0_off1 i) (off' := ![0, 0, 512 * (i 1).val])
    (size := S16x4x512.size) (k0_off1_inb i) e [] y (k0_off1_eq i) 2 ?_).trans ?_
  · show (y 2).val < 512 * (i 1).val ∨ 512 * (i 1).val + 512 ≤ (y 2).val
    omega
  · rw [View.writes_nil]
    exact congrFun (Memref.IsWhole.read_unread (Memref.isWhole_whole cc0_scratch0) d) y

/-- Tile `t % 16` of the block of point `t` is computed at point `t`. -/
private theorem tilePoint_self (t : Fin cfg0.N) : tilePoint t (t.val % 16) = t := by
  apply Fin.ext
  show t.val / 16 * 16 + t.val % 16 % 16 = t.val
  omega

/-- Points of one batch block have the same whole block of exponentials. -/
private theorem wholeExp_congr (c : Dev nD) (t t' : Fin cfg0.N) (h : t.val / 16 = t'.val / 16) :
    wholeExp m c t = wholeExp m c t' := by
  have hp : ∀ j, tilePoint t j = tilePoint t' j := fun j => Fin.ext (by
    show t.val / 16 * 16 + j % 16 = t'.val / 16 * 16 + j % 16
    rw [h])
  funext y
  unfold wholeExp
  rw [hp]

/-- After point `n` the slices `0 … n % 16` of the parking scratch hold the block's exponentials. -/
private theorem parkAt_inv (c : Dev nD) (d0 : Vec F S16x4x8192 .f32) :
    ∀ (n : ℕ) (hn : n < cfg0.N) (y : S16x4x8192.Idx), (y 2).val / 512 ≤ n % 16 →
      parkAt m c d0 n hn y = wholeExp m c ⟨n, hn⟩ y := by
  intro n
  induction n with
  | zero =>
    intro hn y hy
    have h1 := coords_one ⟨0, hn⟩
    have hmem : (y 2).val / 512 = ((grid0.coords ⟨0, hn⟩) 1).val := by
      rw [h1]; show (y 2).val / 512 = 0 % 16; omega
    show parkStep (grid0.coords ⟨0, hn⟩) (tileAt m c ⟨0, hn⟩) d0 y = _
    rw [parkStep_of_mem _ _ _ y hmem]
    unfold wholeExp
    rw [hmem, h1, tilePoint_self]
  | succ n ih =>
    intro hn y hy
    have h1 := coords_one ⟨n + 1, hn⟩
    show parkStep (grid0.coords ⟨n + 1, hn⟩) (tileAt m c ⟨n + 1, hn⟩) (parkAt m c d0 n (Nat.lt_of_succ_lt hn)) y = _
    by_cases hmem : (y 2).val / 512 = ((grid0.coords ⟨n + 1, hn⟩) 1).val
    · rw [parkStep_of_mem _ _ _ y hmem]
      unfold wholeExp
      rw [hmem, h1, tilePoint_self]
    · rw [parkStep_of_not_mem _ _ _ y hmem]
      have h2 : (y 2).val / 512 ≠ (n + 1) % 16 := fun hh => hmem (hh.trans h1.symm)
      rw [ih (Nat.lt_of_succ_lt hn) y (by omega)]
      exact congrFun (wholeExp_congr m c ⟨n, Nat.lt_of_succ_lt hn⟩ ⟨n + 1, hn⟩ (by
        show n / 16 = (n + 1) / 16
        omega)) y

theorem parkAt_eq_wholeExp (c : Dev nD) (d0 : Vec F S16x4x8192 .f32) (t : Fin cfg0.N) (h : t.val % 16 = 15) :
    parkAt m c d0 t.val t.isLt = wholeExp m c t := by
  funext y
  have hy : (y 2).val < 8192 := (y 2).isLt
  exact parkAt_inv m c d0 t.val t.isLt y (by omega)

end Cert.KernelIdeal.Body

end
-- ==== Proof.KI.Body.lean ====
/-
  The body obligation of the pipeline, point by point, and the run.

  At a point the body is handed the three input blocks, the output's staging buffer, and — through the invariant —
  the two scratch buffers at what the point before left. By the point's case (first, middle or last tile of its
  batch block) one of the three runs applies; what it leaves in the scratch buffers is the next point's invariant,
  the output's buffer goes back untouched except at the last tile, where it is left at the whole block of
  exponentials over the row sums.
-/
import proofs.«428490_j68822555951213_3_alg».proof.Proof.KI.State
import proofs.«428490_j68822555951213_3_alg».proof.Proof.KI.ParkFull

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After a list of stores whose LAST covers the whole accumulator, it holds that store's value. -/
theorem read_rowsum_last {κ : Kind} {sp : Space} (v : View sig κ sp S16x4 .f32) (f : v.ty.Contents (Elt F))
    (w : S16x4.Idx → Elt F .f32) (L : List (View.Piece (Elt F) S16x4 .f32)) :
    v.read (Elt F) (v.writes (Elt F) f ((⟨Rect.unit (s := S16x4) ![0, 0] S16x4.size inb_S16x4_S16x4_0_0, w⟩ : View.Piece (Elt F) S16x4 .f32) :: L)) = w := by
  rw [View.read_writes_eq_canon _ _ _ (fun y => ⟨_, List.mem_cons_self, View.mem_set_unit_zero zeros2 inb_S16x4_S16x4_0_0 y⟩), View.canon_cons_unit_zero zeros2]

/-- The same for the output's staging buffer. -/
theorem read_out_last {κ : Kind} {sp : Space} (v : View sig κ sp S16x4x8192 .f32) (f : v.ty.Contents (Elt F))
    (w : S16x4x8192.Idx → Elt F .f32) (L : List (View.Piece (Elt F) S16x4x8192 .f32)) :
    v.read (Elt F) (v.writes (Elt F) f ((⟨Rect.unit (s := S16x4x8192) ![0, 0, 0] S16x4x8192.size inb_S16x4x8192_S16x4x8192_0_0_0, w⟩ : View.Piece (Elt F) S16x4x8192 .f32) :: L)) = w := by
  rw [View.read_writes_eq_canon _ _ _ (fun y => ⟨_, List.mem_cons_self, View.mem_set_unit_zero zeros3 inb_S16x4x8192_S16x4x8192_0_0_0 y⟩), View.canon_cons_unit_zero zeros3]

theorem parkAt_zero (c : Dev nD) (d0 : Vec F S16x4x8192 .f32) (t : Fin cfg0.N) (hz : t.val = 0) :
    parkAt m c d0 t.val t.isLt = parkStep (grid0.coords t) (tileAt m c t) d0 := by
  obtain ⟨n, hn⟩ := t
  cases n with
  | zero => rfl
  | succ n => exact absurd hz (Nat.succ_ne_zero n)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = Phi m c (t.val + 1) t.isLt from rfl, Phi_succ]
  have hN : t.val < 256 := lt_of_lt_of_eq t.isLt (show cfg0.N = 256 from N_0)
  by_cases h0 : t.val % 16 = 0
  · -- the first tile of a batch block
    have h1 : ¬ t.val % 16 = 15 := by omega
    rw [show (dats m 0 c).leavesExact 0 t = owns (c : Thread nD τ) (mem0 t) fullShare ((dats m 0 c).after 0 t) from by
      unfold Dat.leavesExact; rw [live0 t], after0]
    rw [show (dats m 0 c).leavesExact 1 t = owns (c : Thread nD τ) (mem1 t) fullShare ((dats m 0 c).after 1 t) from by
      unfold Dat.leavesExact; rw [live1 t], after1]
    rw [show (dats m 0 c).leavesExact 2 t = owns (c : Thread nD τ) (mem2 t) fullShare ((dats m 0 c).after 2 t) from by
      unfold Dat.leavesExact; rw [live2 t], after2]
    rw [Dat.leavesExact_idle (dats m 0 c) 3 t ((idle3_iff t).mpr h1) (Bool.eq_false_iff.mpr fun h => h1 ((flush0_3 t).mp h))]
    by_cases hz : t.val = 0
    · rw [Phi_castSucc m c t, Phi_zero m c _ _ hz, PhiA_eq]
      iintro ⟨⟨⟨⟨%d0, HS0⟩, HS1⟩, Hg⟩, Ho, ⟨%e0, H0⟩, ⟨%e1, H1⟩, ⟨%e2, H2⟩, ⟨%e3, H3⟩⟩
      iapply ((runFirst c (grid0.coords t) _ _ _ _ _ _ _ _ _ _ _ _ ((isFirst_iff t).mpr h0) (fun h => h1 ((isLast_iff t).mp h)) (iblk m c 0 t) (iblk m c 1 t) (iblk m c 2 t)).2.2 ((dats m 0 c).before 3 t e3) d0 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, ⟨%es1, HS1⟩⟩
      isplitl [HS0 HS1 Hg]
      · isplitl [HS0 HS1]
        · isplitl [HS0]
          · iexists d0; unfold owns; iexists _; isplitr
            swap; · iexact HS0
            ipureintro; rw [runFirst_parked, parkAt_zero m c d0 t hz]; rfl
          unfold owns; iexists _; isplitr
          swap; · iexact HS1
          ipureintro; rw [runFirst_rowsum, read_rowsum_last, accAt_first m c t h0]
        iexact Hg
      isplitl [Ho]; · iexact Ho
      isplitl [H0]; · iexact H0
      isplitl [H1]; · iexact H1
      isplitl [H2]; · iexact H2
      iexists e3; iexact H3
    · rw [Phi_castSucc m c t, Phi_pos m c _ _ hz]
      iintro ⟨⟨⟨⟨%d0, HS0⟩, HS1⟩, Hg⟩, Ho, ⟨%e0, H0⟩, ⟨%e1, H1⟩, ⟨%e2, H2⟩, ⟨%e3, H3⟩⟩
      iapply ((runFirst c (grid0.coords t) _ _ _ _ _ _ _ _ _ _ _ _ ((isFirst_iff t).mpr h0) (fun h => h1 ((isLast_iff t).mp h)) (iblk m c 0 t) (iblk m c 1 t) (iblk m c 2 t)).2.2 ((dats m 0 c).before 3 t e3) _ Set.univ _)
      isplitl [H0]; · iexact H0
      isplitl [H1]; · iexact H1
      isplitl [H2]; · iexact H2
      isplitl [H3]; · iexact H3
      isplitl [HS0]; · iexact HS0
      isplitl [HS1]; · iexists _; iexact HS1
      iintro ⟨H0, H1, H2, H3, HS0, ⟨%es1, HS1⟩⟩
      isplitl [HS0 HS1 Hg]
      · isplitl [HS0 HS1]
        · isplitl [HS0]
          · iexists d0; unfold owns; iexists _; isplitr
            swap; · iexact HS0
            ipureintro; rw [runFirst_parked, parkAt_later m c d0 t hz]; rfl
          unfold owns; iexists _; isplitr
          swap; · iexact HS1
          ipureintro; rw [runFirst_rowsum, read_rowsum_last, accAt_first m c t h0]
        iexact Hg
      isplitl [Ho]; · iexact Ho
      isplitl [H0]; · iexact H0
      isplitl [H1]; · iexact H1
      isplitl [H2]; · iexact H2
      iexists e3; iexact H3
  · have hz : t.val ≠ 0 := fun e => h0 (by rw [e])
    by_cases h1 : t.val % 16 = 15
    · -- the last tile of a batch block
      rw [show (dats m 0 c).leavesExact 0 t = owns (c : Thread nD τ) (mem0 t) fullShare ((dats m 0 c).after 0 t) from by
        unfold Dat.leavesExact; rw [live0 t], after0]
      rw [show (dats m 0 c).leavesExact 1 t = owns (c : Thread nD τ) (mem1 t) fullShare ((dats m 0 c).after 1 t) from by
        unfold Dat.leavesExact; rw [live1 t], after1]
      rw [show (dats m 0 c).leavesExact 2 t = owns (c : Thread nD τ) (mem2 t) fullShare ((dats m 0 c).after 2 t) from by
        unfold Dat.leavesExact; rw [live2 t], after2]
      rw [show (dats m 0 c).leavesExact 3 t = owns (c : Thread nD τ) (mem3 t) fullShare ((dats m 0 c).after 3 t) from by
        unfold Dat.leavesExact; rw [show cfg0.idle 3 (grid0.coords t) = false from Bool.eq_false_iff.mpr fun h => (idle3_iff t).mp h h1], after3]
      rw [Phi_castSucc m c t, Phi_pos m c _ _ hz]
      iintro ⟨⟨⟨⟨%d0, HS0⟩, HS1⟩, Hg⟩, Ho, ⟨%e0, H0⟩, ⟨%e1, H1⟩, ⟨%e2, H2⟩, ⟨%e3, H3⟩⟩
      iapply ((runLast c (grid0.coords t) _ _ _ _ _ _ _ _ _ _ _ _ (fun h => h0 ((isFirst_iff t).mp h)) ((isLast_iff t).mpr h1) (iblk m c 0 t) (iblk m c 1 t) (iblk m c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%f3, H3⟩, HS0, ⟨%es1, HS1⟩⟩
      isplitl [HS0 HS1 Hg]
      · isplitl [HS0 HS1]
        · isplitl [HS0]
          · iexists d0; unfold owns; iexists _; isplitr
            swap; · iexact HS0
            ipureintro; rw [runLast_parked, parkAt_later m c d0 t hz]; rfl
          unfold owns; iexists _; isplitr
          swap; · iexact HS1
          ipureintro; rw [runLast_rowsum, read_rowsum_last, accAt_later m c t h0]
        iexact Hg
      isplitl [Ho]; · iexact Ho
      isplitl [H0]; · iexact H0
      isplitl [H1]; · iexact H1
      isplitl [H2]; · iexact H2
      unfold owns; iexists _; isplitr
      swap; · iexact H3
      ipureintro
      rw [runLast_out, read_out_last]
      unfold outAt
      rw [← parkAt_eq_wholeExp m c d0 t h1, parkAt_later m c d0 t hz, accAt_later m c t h0]
      rfl
    · -- a middle tile
      rw [show (dats m 0 c).leavesExact 0 t = owns (c : Thread nD τ) (mem0 t) fullShare ((dats m 0 c).after 0 t) from by
        unfold Dat.leavesExact; rw [live0 t], after0]
      rw [show (dats m 0 c).leavesExact 1 t = owns (c : Thread nD τ) (mem1 t) fullShare ((dats m 0 c).after 1 t) from by
        unfold Dat.leavesExact; rw [live1 t], after1]
      rw [show (dats m 0 c).leavesExact 2 t = owns (c : Thread nD τ) (mem2 t) fullShare ((dats m 0 c).after 2 t) from by
        unfold Dat.leavesExact; rw [live2 t], after2]
      rw [Dat.leavesExact_idle (dats m 0 c) 3 t ((idle3_iff t).mpr h1) (Bool.eq_false_iff.mpr fun h => h1 ((flush0_3 t).mp h))]
      rw [Phi_castSucc m c t, Phi_pos m c _ _ hz]
      iintro ⟨⟨⟨⟨%d0, HS0⟩, HS1⟩, Hg⟩, Ho, ⟨%e0, H0⟩, ⟨%e1, H1⟩, ⟨%e2, H2⟩, ⟨%e3, H3⟩⟩
      iapply ((runMid c (grid0.coords t) _ _ _ _ _ _ _ _ _ _ _ _ (fun h => h0 ((isFirst_iff t).mp h)) (fun h => h1 ((isLast_iff t).mp h)) (iblk m c 0 t) (iblk m c 1 t) (iblk m c 2 t) _).2.2 ((dats m 0 c).before 3 t e3) _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, ⟨%es1, HS1⟩⟩
      isplitl [HS0 HS1 Hg]
      · isplitl [HS0 HS1]
        · isplitl [HS0]
          · iexists d0; unfold owns; iexists _; isplitr
            swap; · iexact HS0
            ipureintro; rw [runMid_parked, parkAt_later m c d0 t hz]; rfl
          unfold owns; iexists _; isplitr
          swap; · iexact HS1
          ipureintro; rw [runMid_rowsum, read_rowsum_last, accAt_later m c t h0]
        iexact Hg
      isplitl [Ho]; · iexact Ho
      isplitl [H0]; · iexact H0
      isplitl [H1]; · iexact H1
      isplitl [H2]; · iexact H2
      iexists e3; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

/-- After the last point the invariant gives it back: what the scratch buffers hold is forgotten. -/
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 256 := N_0; omega), PhiA_eq]
  iintro ⟨⟨⟨%d0, HS0⟩, HS1⟩, Hg⟩
  isplitl [HS0 HS1]
  · isplitl [HS0]
    · iexists _; iexact HS0
    iexists _; iexact HS1
  iexact Hg

/-- THE RUN: every weakly fair execution of @main terminates, every windowed array ends at what the write-backs
    left in it (`Dat.arrAt`), every other unscoped buffer as it was. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- THE FRAME, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.Spec.lean ====
/-
  The mathematics both programs compute, on the extended reals, as functions of the three argument arrays read
  index by index. For a batch row `B`, a head `h` and a memory row `M`:

    sharp B h M = (⟨K[B,h,:], X[B,M,:]⟩ / (‖K[B,h,:]‖_ε · ‖X[B,M,:]‖_ε + ε)) · softplus (S[B,h])

  with `‖v‖_ε = √(∑ v² + ε)`. The kernel returns `exp (sharp) / ∑_M exp (sharp)`; the reference subtracts the
  row's maximum first, `exp (sharp - max) / ∑_M exp (sharp - max)`. The extents of the batch and memory axes are
  parameters, so that the same definitions read a block of the arrays and the whole arrays.
-/
import Idealize.ShloMosaic.PureOps.Ideal
import Idealize.ShloMosaic.Lib.ValueIdx

noncomputable section

namespace Cert.Spec

open Idealize.ShloMosaic Idealize.ShloMosaic.ValueIdx

/-- The stabiliser `ε` both programs spell as the same single-precision word. -/
def eps : EReal := Ideal.ofBits .f32 0x3727C5AC#32

/-- `softplus s = max s 0 + log (1 + exp (-|s|))`, with `|s| = max s (-s)`. -/
def softplus (s : EReal) : EReal := max s 0 + Ideal.log1p (Ideal.exp (-(max s (-s))))

section
variable {nB nM : ℕ}
variable (X : (⟨3, ![nB, nM, 32]⟩ : Shape).Idx → EReal) (K : (⟨3, ![nB, 4, 32]⟩ : Shape).Idx → EReal)
  (S : (⟨2, ![nB, 4]⟩ : Shape).Idx → EReal)

/-- The inner product of key `(B, h)` with memory row `(B, M)`. -/
def dot (B : Fin nB) (h : Fin 4) (M : Fin nM) : EReal := ∑ w : Fin 32, K (ix3 B h w) * X (ix3 B M w)

/-- `√(∑ K[B,h,:]² + ε)`. -/
def keyNorm (B : Fin nB) (h : Fin 4) : EReal := Ideal.sqrt ((∑ w : Fin 32, K (ix3 B h w) * K (ix3 B h w)) + eps)

/-- `√(∑ X[B,M,:]² + ε)`. -/
def memNorm (B : Fin nB) (M : Fin nM) : EReal := Ideal.sqrt ((∑ w : Fin 32, X (ix3 B M w) * X (ix3 B M w)) + eps)

/-- The sharpened cosine activation. -/
def sharp (B : Fin nB) (h : Fin 4) (M : Fin nM) : EReal :=
  Ideal.div (dot X K B h M) (keyNorm K B h * memNorm X B M + eps) * softplus (S (ix2 B h))

/-- `exp (sharp)`: what the kernel parks, tile by tile, and sums. -/
def expSharp (B : Fin nB) (h : Fin 4) (M : Fin nM) : EReal := Ideal.exp (sharp X K S B h M)

/-- The kernel's result: the exponentials over their plain row sum. -/
def kernelOut : (⟨3, ![nB, 4, nM]⟩ : Shape).Idx → EReal := fun j =>
  Ideal.div (expSharp X K S (j 0) (j 1) (j 2)) (∑ M : Fin nM, expSharp X K S (j 0) (j 1) M)

/-- The maximum of a row of `sharp`, folded from `-∞`. -/
def rowMax (B : Fin nB) (h : Fin 4) : EReal := (Finset.univ : Finset (Fin nM)).fold max ⊥ (fun M => sharp X K S B h M)

/-- The reference's result: the softmax with the row maximum subtracted. -/
def refOut : (⟨3, ![nB, 4, nM]⟩ : Shape).Idx → EReal := fun j =>
  Ideal.div (Ideal.exp (sharp X K S (j 0) (j 1) (j 2) - rowMax X K S (j 0) (j 1)))
    (∑ M : Fin nM, Ideal.exp (sharp X K S (j 0) (j 1) M - rowMax X K S (j 0) (j 1)))

end

end Cert.Spec

end
-- ==== Proof.KI.Payload.lean ====
/-
  The point's values read at an index, on the extended reals: the parked tile is `exp (sharp)` of the three blocks,
  the accumulator gains the tile's row sum, the reset is zero, and the last point's quotient is entrywise.
-/
import proofs.«428490_j68822555951213_3_alg».proof.Proof.KI.Pay
import proofs.«428490_j68822555951213_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Cert.KernelIdeal.Body Idealize.ShloMosaic Idealize.ShloMosaic.TcCoe Idealize.SL.Sem Idealize.ShloMosaic.ValueIdx

/-! ## A unit axis added by a cast and spread by a broadcast, read at coordinates -/

section Layout
variable {α : Type}

/-- An `[a, b]` array cast to `[a, b, 1]` reads, at `(i, j, u)`, the operand at `(i, j)`. -/
private theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, l]` array cast to `[a, 1, l]` reads, at `(i, u, k)`, the operand at `(i, k)`. -/
private theorem shapeCast_al_a1l_apply {a l : ℕ} (x : (⟨2, ![a, l]⟩ : Shape).Idx → α)
    (h : (⟨2, ![a, l]⟩ : Shape).ShapeCasts ⟨3, ![a, 1, l]⟩) (i : Fin a) (u : Fin 1) (k : Fin l) :
    shapeCast ⟨3, ![a, 1, l]⟩ x h (ix3 i u k) = x (ix2 i k) :=
  shapeCast_apply x h _ _ (by
    have hu : u.val = 0 := by omega
    rw [Shape.rowMajor_val_three, Shape.rowMajor_val_two]
    show i.val * l + k.val = (i.val * 1 + u.val) * l + k.val
    rw [hu, Nat.mul_one, Nat.add_zero])

/-- An `[a, b, 1]` array broadcast to `[a, b, l]` reads, at `(i, j, k)`, the operand's one entry of row `(i, j)`. -/
private theorem broadcastTo_ab1_abl_apply {a b l : ℕ} (v : (⟨3, ![a, b, 1]⟩ : Shape).Idx → α)
    (h : (⟨3, ![a, b, 1]⟩ : Shape).Broadcasts ⟨3, ![a, b, l]⟩) (i : Fin a) (j : Fin b) (k : Fin l) :
    broadcastTo ⟨3, ![a, b, l]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, l]` array broadcast to `[a, b, l]` reads, at `(i, j, k)`, the operand's one row of `i` at `k`. -/
private theorem broadcastTo_a1l_abl_apply {a b l : ℕ} (v : (⟨3, ![a, 1, l]⟩ : Shape).Idx → α)
    (h : (⟨3, ![a, 1, l]⟩ : Shape).Broadcasts ⟨3, ![a, b, l]⟩) (i : Fin a) (j : Fin b) (k : Fin l) :
    broadcastTo ⟨3, ![a, b, l]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if l = 1 then 0 else k.val
    split
    · have := k.isLt; omega
    · rfl

end Layout

/-! ## The lane sums and the product at coordinates -/

/-- The sum over the last axis of a `[16, 4, 32]` array, at `(b, h)`. -/
private theorem laneSum_key (src : FVec Ideal S16x4x32 .f32) (hφ : FKind.Formats .f32)
    (hacc : (0x00000000#32 : BitVec 32) = 0x00000000#32) (b : Fin 16) (h : Fin 4) :
    multiReduction (F := Ideal) .add [2] S16x4 src 0x00000000#32 reduces_S16x4x32_S16x4 hφ hacc (ix2 b h)
      = ∑ w : Fin 32, src (ix3 b h w) := by
  refine (Ideal.multiReduction_add_single src 0x00000000#32 reduces_S16x4x32_S16x4 hφ hacc (ix2 b h)).trans ?_
  refine Finset.sum_congr rfl fun w _ => congrArg src ?_
  funext a
  match a with
  | ⟨0, _⟩ => rfl
  | ⟨1, _⟩ => rfl
  | ⟨2, _⟩ => rfl

/-- The sum over the last axis of a `[16, 512, 32]` array, at `(b, l)`. -/
private theorem laneSum_mem (src : FVec Ideal S16x512x32 .f32) (hφ : FKind.Formats .f32)
    (hacc : (0x00000000#32 : BitVec 32) = 0x00000000#32) (b : Fin 16) (l : Fin 512) :
    multiReduction (F := Ideal) .add [2] S16x512 src 0x00000000#32 reduces_S16x512x32_S16x512 hφ hacc (ix2 b l)
      = ∑ w : Fin 32, src (ix3 b l w) := by
  refine (Ideal.multiReduction_add_single src 0x00000000#32 reduces_S16x512x32_S16x512 hφ hacc (ix2 b l)).trans ?_
  refine Finset.sum_congr rfl fun w _ => congrArg src ?_
  funext a
  match a with
  | ⟨0, _⟩ => rfl
  | ⟨1, _⟩ => rfl
  | ⟨2, _⟩ => rfl

/-- The sum over the last axis of a `[16, 4, 512]` array, at `(b, h)`. -/
private theorem laneSum_row (src : FVec Ideal S16x4x512 .f32) (hφ : FKind.Formats .f32)
    (hacc : (0x00000000#32 : BitVec 32) = 0x00000000#32) (b : Fin 16) (h : Fin 4) :
    multiReduction (F := Ideal) .add [2] S16x4 src 0x00000000#32 reduces_S16x4x512_S16x4 hφ hacc (ix2 b h)
      = ∑ l : Fin 512, src (ix3 b h l) := by
  refine (Ideal.multiReduction_add_single src 0x00000000#32 reduces_S16x4x512_S16x4 hφ hacc (ix2 b h)).trans ?_
  refine Finset.sum_congr rfl fun l _ => congrArg src ?_
  funext a
  match a with
  | ⟨0, _⟩ => rfl
  | ⟨1, _⟩ => rfl
  | ⟨2, _⟩ => rfl

/-- The product's left operand index on the batch axis is the output's batch coordinate. -/
private theorem lhs_dot_0 (i : S16x4x512.Idx) (q : dot_S16x4x32_S16x512x32_S16x4x512_2_2_1_1_0_0.contr.Idx) :
    (dot_S16x4x32_S16x512x32_S16x4x512_2_2_1_1_0_0.lhsIdx i q 0).val = (i 0).val := by
  unfold DotDims.lhsIdx
  rw [dif_pos (show (0 : Fin S16x4x32.rank) ∈ dot_S16x4x32_S16x512x32_S16x4x512_2_2_1_1_0_0.lhsBatch by decide)]
  rfl
/-- Its index on the head axis is the output's head coordinate. -/
private theorem lhs_dot_1 (i : S16x4x512.Idx) (q : dot_S16x4x32_S16x512x32_S16x4x512_2_2_1_1_0_0.contr.Idx) :
    (dot_S16x4x32_S16x512x32_S16x4x512_2_2_1_1_0_0.lhsIdx i q 1).val = (i 1).val := by
  unfold DotDims.lhsIdx
  rw [dif_neg (show ¬(1 : Fin S16x4x32.rank) ∈ dot_S16x4x32_S16x512x32_S16x4x512_2_2_1_1_0_0.lhsBatch by decide), dif_pos (show (1 : Fin S16x4x32.rank) ∈ dot_S16x4x32_S16x512x32_S16x4x512_2_2_1_1_0_0.lhsNonContracting by decide)]
  rfl
/-- Its index on the word axis is the contraction coordinate. -/
private theorem lhs_dot_2 (i : S16x4x512.Idx) (q : dot_S16x4x32_S16x512x32_S16x4x512_2_2_1_1_0_0.contr.Idx) :
    (dot_S16x4x32_S16x512x32_S16x4x512_2_2_1_1_0_0.lhsIdx i q 2).val = (q ⟨0, by decide⟩).val :=
  dot_S16x4x32_S16x512x32_S16x4x512_2_2_1_1_0_0.lhsIdx_val_of_single rfl i q
/-- The right operand's index on the batch axis is the output's batch coordinate. -/
private theorem rhs_dot_0 (i : S16x4x512.Idx) (q : dot_S16x4x32_S16x512x32_S16x4x512_2_2_1_1_0_0.contr.Idx) :
    (dot_S16x4x32_S16x512x32_S16x4x512_2_2_1_1_0_0.rhsIdx i q 0).val = (i 0).val := by
  unfold DotDims.rhsIdx
  rw [dif_pos (show (0 : Fin S16x512x32.rank) ∈ dot_S16x4x32_S16x512x32_S16x4x512_2_2_1_1_0_0.rhsBatch by decide)]
  rfl
/-- Its index on the memory-row axis is the output's last coordinate. -/
private theorem rhs_dot_1 (i : S16x4x512.Idx) (q : dot_S16x4x32_S16x512x32_S16x4x512_2_2_1_1_0_0.contr.Idx) :
    (dot_S16x4x32_S16x512x32_S16x4x512_2_2_1_1_0_0.rhsIdx i q 1).val = (i 2).val := by
  unfold DotDims.rhsIdx
  rw [dif_neg (show ¬(1 : Fin S16x512x32.rank) ∈ dot_S16x4x32_S16x512x32_S16x4x512_2_2_1_1_0_0.rhsBatch by decide), dif_pos (show (1 : Fin S16x512x32.rank) ∈ dot_S16x4x32_S16x512x32_S16x4x512_2_2_1_1_0_0.rhsNonContracting by decide)]
  rfl
/-- Its index on the word axis is the contraction coordinate. -/
private theorem rhs_dot_2 (i : S16x4x512.Idx) (q : dot_S16x4x32_S16x512x32_S16x4x512_2_2_1_1_0_0.contr.Idx) :
    (dot_S16x4x32_S16x512x32_S16x4x512_2_2_1_1_0_0.rhsIdx i q 2).val = (q ⟨0, by decide⟩).val :=
  dot_S16x4x32_S16x512x32_S16x4x512_2_2_1_1_0_0.rhsIdx_val_of_single rfl i q

/-- The product into the zero accumulator at `(b, h, l)`: the inner product of key row `(b, h)` with memory row `(b, l)`. -/
private theorem matmul_at (k : FVec Ideal S16x4x32 .bf16) (x : FVec Ideal S16x512x32 .bf16) (b : Fin 16) (h : Fin 4) (l : Fin 512) :
    matmul dot_S16x4x32_S16x512x32_S16x4x512_2_2_1_1_0_0 none k x (constant (F := Ideal) S16x4x512 .f32 0x00000000#32) (ix3 b h l)
      = ∑ w : Fin 32, k (ix3 b h w) * x (ix3 b l w) := by
  simp only [matmul]
  rw [Ideal.matmul_constant_zero_apply, ← Equiv.sum_comp (ValueIdx.contrEquiv1 dot_S16x4x32_S16x512x32_S16x4x512_2_2_1_1_0_0 32 rfl rfl).symm]
  refine Finset.sum_congr rfl fun w _ => ?_
  have hw := ValueIdx.contrEquiv1_symm_val dot_S16x4x32_S16x512x32_S16x4x512_2_2_1_1_0_0 32 rfl rfl w
  have el : dot_S16x4x32_S16x512x32_S16x4x512_2_2_1_1_0_0.lhsIdx (ix3 b h l) ((ValueIdx.contrEquiv1 dot_S16x4x32_S16x512x32_S16x4x512_2_2_1_1_0_0 32 rfl rfl).symm w) = ix3 b h w := funext fun a => Fin.ext (by
    match a with
    | ⟨0, _⟩ => exact lhs_dot_0 _ _
    | ⟨1, _⟩ => exact lhs_dot_1 _ _
    | ⟨2, _⟩ => exact (lhs_dot_2 _ _).trans hw)
  have er : dot_S16x4x32_S16x512x32_S16x4x512_2_2_1_1_0_0.rhsIdx (ix3 b h l) ((ValueIdx.contrEquiv1 dot_S16x4x32_S16x512x32_S16x4x512_2_2_1_1_0_0 32 rfl rfl).symm w) = ix3 b l w := funext fun a => Fin.ext (by
    match a with
    | ⟨0, _⟩ => exact rhs_dot_0 _ _
    | ⟨1, _⟩ => exact rhs_dot_1 _ _
    | ⟨2, _⟩ => exact (rhs_dot_2 _ _).trans hw)
  rw [el, er]

/-! ## The strength's factor -/

/-- The selected branch at `(b, h)` is `max s 0 + log1p (exp (-|s|))` of the strength `s` there: the comparison of
    `s - 0` with itself for "not equal" is false. -/
private theorem strength_apply (x2 : Vec Ideal S16x4 .f32) (b : Fin 16) (h : Fin 4) :
    select (k0_pay9 (F := Ideal) x2) (k0_pay10 x2) (addf (k0_pay7 x2) (k0_pay11 x2)) (ix2 b h)
      = Cert.Spec.softplus (x2 (ix2 b h)) := by
  have hc : k0_pay9 (F := Ideal) x2 (ix2 b h) = 0#1 := by
    unfold k0_pay9
    rw [cmpf_apply, Ideal.cmpf_def]
    simp [Ideal.cmp]
  rw [select_apply, hc, select_zero, addf_apply]
  unfold k0_pay7 k0_pay11 k0_pay8 Cert.Spec.softplus
  show max (x2 (ix2 b h)) (Ideal.ofBits .f32 0x00000000#32)
      + Ideal.log1p (Ideal.exp (Ideal.ofBits .f32 0x00000000#32
          - max (x2 (ix2 b h) - Ideal.ofBits .f32 0x00000000#32) (-(x2 (ix2 b h) - Ideal.ofBits .f32 0x00000000#32)))) = _
  rw [Ideal.ofBits_zero_f32, sub_zero, zero_sub]

/-! ## The cosine term, the tile and the row sum -/

/-- The quotient the point keeps: the inner product over the product of the two stabilised norms plus `ε`. -/
private theorem cos_apply (x0 : Vec Ideal S16x512x32 .f32) (x1 : Vec Ideal S16x4x32 .f32) (b : Fin 16) (h : Fin 4) (l : Fin 512) :
    k0_pay6 (F := Ideal) x0 x1 (ix3 b h l)
      = Ideal.div (Cert.Spec.dot (nB := 16) (nM := 512) x0 x1 b h l)
          (Cert.Spec.keyNorm (nB := 16) x1 b h * Cert.Spec.memNorm (nB := 16) (nM := 512) x0 b l + Cert.Spec.eps) := by
  unfold k0_pay6
  rw [divf_apply, addf_apply, mulf_apply, broadcast_apply, broadcastTo_ab1_abl_apply, broadcastTo_a1l_abl_apply,
    shapeCast_ab_ab1_apply, shapeCast_al_a1l_apply, matmul_at]
  show Ideal.div _ (Ideal.sqrt (_ + _) * Ideal.sqrt (_ + _) + _) = _
  rw [laneSum_key, laneSum_mem]
  rfl

/-- The exponential the point computes at `(b, h, l)` is `exp (sharp)` of the three blocks. -/
private theorem pay1_apply (x0 : Vec Ideal S16x512x32 .f32) (x1 : Vec Ideal S16x4x32 .f32) (x2 : Vec Ideal S16x4 .f32)
    (b : Fin 16) (h : Fin 4) (l : Fin 512) :
    k0_pay1 (F := Ideal) (k0_pay6 x0 x1) (k0_pay7 x2) (k0_pay9 x2) (k0_pay10 x2) (k0_pay11 x2) (ix3 b h l)
      = Cert.Spec.expSharp (nB := 16) (nM := 512) x0 x1 x2 b h l := by
  unfold k0_pay1
  show Ideal.exp (k0_pay6 (F := Ideal) x0 x1 (ix3 b h l) * broadcastTo S16x4x512 _ _ (ix3 b h l)) = _
  rw [broadcastTo_ab1_abl_apply, shapeCast_ab_ab1_apply, strength_apply, cos_apply]
  rfl

theorem expT_apply (x0 : Vec Ideal S16x512x32 .f32) (x1 : Vec Ideal S16x4x32 .f32) (x2 : Vec Ideal S16x4 .f32)
    (b : Fin 16) (h : Fin 4) (l : Fin 512) :
    expT (F := Ideal) x0 x1 x2 (ix3 b h l) = Cert.Spec.expSharp (nB := 16) (nM := 512) x0 x1 x2 b h l := by
  unfold expT k0_pay2
  rw [shapeCast_self]
  exact pay1_apply x0 x1 x2 b h l

theorem accT_apply (x0 : Vec Ideal S16x512x32 .f32) (x1 : Vec Ideal S16x4x32 .f32) (x2 : Vec Ideal S16x4 .f32) (a : Vec Ideal S16x4 .f32)
    (b : Fin 16) (h : Fin 4) :
    accT (F := Ideal) x0 x1 x2 a (ix2 b h) = a (ix2 b h) + ∑ l : Fin 512, Cert.Spec.expSharp (nB := 16) (nM := 512) x0 x1 x2 b h l := by
  unfold accT k0_pay3
  rw [shapeCast_self, addf_apply, laneSum_row]
  exact congrArg (a (ix2 b h) + ·) (Finset.sum_congr rfl fun l _ => pay1_apply x0 x1 x2 b h l)

theorem reset_apply (b : Fin 16) (h : Fin 4) : k0_pay5 (F := Ideal) (ix2 b h) = (0 : EReal) := by
  unfold k0_pay5
  rw [shapeCast_self]
  exact Ideal.ofBits_zero_f32

theorem quot_apply (v60 : Vec Ideal S16x4x8192 .f32) (v61 : Vec Ideal S16x4 .f32) (b : Fin 16) (h : Fin 4) (M : Fin 8192) :
    k0_pay4 (F := Ideal) v60 v61 (ix3 b h M) = Ideal.div (v60 (ix3 b h M)) (v61 (ix2 b h)) := by
  unfold k0_pay4
  rw [divf_apply, broadcastTo_ab1_abl_apply, shapeCast_ab_ab1_apply]

end Cert.KernelIdeal.Payload

end
-- ==== Proof.KI.AccSum.lean ====
/-
  The accumulator after a point, on the extended reals: the sum, over the tiles of the batch block up to this one,
  of the tile's row sums of exponentials.
-/
import proofs.«428490_j68822555951213_3_alg».proof.Proof.KI.State
import proofs.«428490_j68822555951213_3_alg».proof.Proof.KI.Payload

set_option maxRecDepth 16384

noncomputable section

namespace Cert.KernelIdeal.Body

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The row sum of the exponentials of point `s`'s tile at `(b, h)`. -/
private def rowExp (c : Dev nD) (s : Fin cfg0.N) (b : Fin 16) (h : Fin 4) : EReal :=
  ∑ l : Fin 512, Cert.Spec.expSharp (nB := 16) (nM := 512) (memBlk m c s) (keyBlk m c s) (strBlk m c s) b h l

/-- A point's accumulator update at `(b, h)`: what the accumulator held there plus the tile's row sum. -/
private theorem accT_row (c : Dev nD) (s : Fin cfg0.N) (a : Vec Ideal S16x4 .f32) (b : Fin 16) (h : Fin 4) :
    accT (F := Ideal) (memBlk m c s) (keyBlk m c s) (strBlk m c s) a (ix2 b h) = a (ix2 b h) + rowExp m c s b h := by
  unfold rowExp
  exact Payload.accT_apply _ _ _ a b h

/-- The accumulator after point `n` is the sum of the row sums of the tiles of its batch block up to it: by
    induction on the point. At the first tile of a block the accumulator restarts from zero and the sum has the
    one term of this tile; at a later tile the block of the point before is the same block, and the new last term
    is this tile's. -/
private theorem accAt_range (c : Dev nD) (b : Fin 16) (h : Fin 4) : ∀ (n : ℕ) (hn : n < cfg0.N),
    accAt (F := Ideal) m c n hn (ix2 b h) = ∑ j ∈ Finset.range (n % 16 + 1), rowExp m c (tilePoint ⟨n, hn⟩ j) b h := by
  intro n
  induction n with
  | zero =>
    intro hn
    have e : tilePoint ⟨0, hn⟩ 0 = ⟨0, hn⟩ := Fin.ext (by
      show 0 / 16 * 16 + 0 % 16 = 0
      rfl)
    refine (congrFun (accAt_first m c ⟨0, hn⟩ rfl) (ix2 b h)).trans ?_
    rw [accT_row, Payload.reset_apply, zero_add]
    show _ = ∑ j ∈ Finset.range 1, rowExp m c (tilePoint ⟨0, hn⟩ j) b h
    rw [Finset.sum_range_one, e]
  | succ n ih =>
    intro hn
    by_cases h0 : (n + 1) % 16 = 0
    · have e : tilePoint ⟨n + 1, hn⟩ 0 = ⟨n + 1, hn⟩ := Fin.ext (by
        show (n + 1) / 16 * 16 + 0 % 16 = n + 1
        omega)
      refine (congrFun (accAt_first m c ⟨n + 1, hn⟩ h0) (ix2 b h)).trans ?_
      rw [accT_row, Payload.reset_apply, zero_add, h0]
      show _ = ∑ j ∈ Finset.range 1, rowExp m c (tilePoint ⟨n + 1, hn⟩ j) b h
      rw [Finset.sum_range_one, e]
    · have hk : (n + 1) % 16 + 1 = (n % 16 + 1) + 1 := by omega
      have e : tilePoint ⟨n + 1, hn⟩ (n % 16 + 1) = ⟨n + 1, hn⟩ := Fin.ext (by
        show (n + 1) / 16 * 16 + (n % 16 + 1) % 16 = n + 1
        omega)
      have es : ∀ j, tilePoint ⟨n + 1, hn⟩ j = tilePoint ⟨n, Nat.lt_of_succ_lt hn⟩ j := fun j => Fin.ext (by
        show (n + 1) / 16 * 16 + j % 16 = n / 16 * 16 + j % 16
        omega)
      refine (congrFun (accAt_later m c ⟨n + 1, hn⟩ h0) (ix2 b h)).trans ?_
      rw [accT_row, hk, Finset.sum_range_succ, e]
      simp only [es]
      exact congrArg (· + rowExp m c ⟨n + 1, hn⟩ b h) (ih (Nat.lt_of_succ_lt hn))

theorem accAt_apply (c : Dev nD) (t : Fin cfg0.N) (b : Fin 16) (h : Fin 4) :
    accAt (F := Ideal) m c t.val t.isLt (ix2 b h)
      = ∑ j : Fin (t.val % 16 + 1), ∑ l : Fin 512,
          Cert.Spec.expSharp (nB := 16) (nM := 512) (memBlk m c (tilePoint t j.val)) (keyBlk m c (tilePoint t j.val)) (strBlk m c (tilePoint t j.val)) b h l := by
  rw [accAt_range m c b h t.val t.isLt, Finset.sum_range]
  rfl

end Cert.KernelIdeal.Body

end
-- ==== Proof.KI.Blocks.lean ====
/-
  The input blocks of a point are blocks of the argument arrays: batch rows `16 (t / 16) …`, and for the memory
  block memory rows `512 (t % 16) …`. So `exp (sharp)` of the blocks at a local index is `exp (sharp)` of the whole
  arrays at the global index.
-/
import proofs.«428490_j68822555951213_3_alg».proof.Proof.KI.State
import proofs.«428490_j68822555951213_3_alg».proof.Proof.Spec

set_option maxRecDepth 16384

noncomputable section

namespace Cert.KernelIdeal.Body

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The batch row of the arrays that row `b` of point `t`'s blocks is. -/
def batchRow (t : Fin cfg0.N) (b : Fin 16) : Fin 256 :=
  ⟨16 * (t.val / 16) + b.val, by
    have h1 := t.isLt
    have h2 : cfg0.N = 256 := N_0
    have h3 := b.isLt
    omega⟩

/-- The memory row of the arrays that row `l` of point `t`'s memory block is. -/
def memRow (t : Fin cfg0.N) (l : Fin 512) : Fin 8192 :=
  ⟨512 * (t.val % 16) + l.val, by have h3 := l.isLt; omega⟩

/-- Point `t`'s memory block at `(b, l, w)` is the memory array at batch row `16 (t / 16) + b`, memory row
    `512 (t % 16) + l`, column `w`: a block's coordinate is its index times its size plus the coordinate inside it. -/
theorem memBlk_apply (c : Dev nD) (t : Fin cfg0.N) (b : Fin 16) (l : Fin 512) (w : Fin 32) :
    (memBlk m c t) (ix3 b l w)
      = (m ((c.tc : Thread nD τ).loc main_arg0) : S256x8192x32.Idx → Elt Ideal .f32) (ix3 (batchRow t b) (memRow t l) w) := by
  have hi : win0_0.index t 0 = t.val / 16 ∧ win0_0.index t 1 = t.val % 16 ∧ win0_0.index t 2 = 0 :=
    (by decide +kernel : ∀ t : Fin grid0.N, win0_0.index t 0 = t.val / 16 ∧ win0_0.index t 1 = t.val % 16 ∧ win0_0.index t 2 = 0) t
  unfold memBlk iblk
  rw [View.read_apply]
  show V m c main_arg0 _ = m (c.tc.loc main_arg0) _
  unfold V
  congr 1
  funext a
  apply Fin.ext
  match a with
  | ⟨0, _⟩ => show win0_0.index t 0 * 16 + 1 * b.val = 16 * (t.val / 16) + b.val; rw [hi.1]; omega
  | ⟨1, _⟩ => show win0_0.index t 1 * 512 + 1 * l.val = 512 * (t.val % 16) + l.val; rw [hi.2.1]; omega
  | ⟨2, _⟩ => show win0_0.index t 2 * 32 + 1 * w.val = w.val; rw [hi.2.2]; omega

/-- Point `t`'s key block at `(b, h, w)` is the key array at batch row `16 (t / 16) + b`, head `h`, column `w`. -/
theorem keyBlk_apply (c : Dev nD) (t : Fin cfg0.N) (b : Fin 16) (h : Fin 4) (w : Fin 32) :
    (keyBlk m c t) (ix3 b h w)
      = (m ((c.tc : Thread nD τ).loc main_arg1) : S256x4x32.Idx → Elt Ideal .f32) (ix3 (batchRow t b) h w) := by
  have hi : win0_1.index t 0 = t.val / 16 ∧ win0_1.index t 1 = 0 ∧ win0_1.index t 2 = 0 :=
    (by decide +kernel : ∀ t : Fin grid0.N, win0_1.index t 0 = t.val / 16 ∧ win0_1.index t 1 = 0 ∧ win0_1.index t 2 = 0) t
  unfold keyBlk iblk
  rw [View.read_apply]
  show V m c main_arg1 _ = m (c.tc.loc main_arg1) _
  unfold V
  congr 1
  funext a
  apply Fin.ext
  match a with
  | ⟨0, _⟩ => show win0_1.index t 0 * 16 + 1 * b.val = 16 * (t.val / 16) + b.val; rw [hi.1]; omega
  | ⟨1, _⟩ => show win0_1.index t 1 * 4 + 1 * h.val = h.val; rw [hi.2.1]; omega
  | ⟨2, _⟩ => show win0_1.index t 2 * 32 + 1 * w.val = w.val; rw [hi.2.2]; omega

/-- Point `t`'s strength block at `(b, h)` is the strength array at batch row `16 (t / 16) + b`, head `h`. -/
theorem strBlk_apply (c : Dev nD) (t : Fin cfg0.N) (b : Fin 16) (h : Fin 4) :
    (strBlk m c t) (ix2 b h)
      = (m ((c.tc : Thread nD τ).loc main_arg2) : S256x4.Idx → Elt Ideal .f32) (ix2 (batchRow t b) h) := by
  have hi : win0_2.index t 0 = t.val / 16 ∧ win0_2.index t 1 = 0 :=
    (by decide +kernel : ∀ t : Fin grid0.N, win0_2.index t 0 = t.val / 16 ∧ win0_2.index t 1 = 0) t
  unfold strBlk iblk
  rw [View.read_apply]
  show V m c main_arg2 _ = m (c.tc.loc main_arg2) _
  unfold V
  congr 1
  funext a
  apply Fin.ext
  match a with
  | ⟨0, _⟩ => show win0_2.index t 0 * 16 + 1 * b.val = 16 * (t.val / 16) + b.val; rw [hi.1]; omega
  | ⟨1, _⟩ => show win0_2.index t 1 * 4 + 1 * h.val = h.val; rw [hi.2]; omega

theorem expSharp_block (c : Dev nD) (t : Fin cfg0.N) (b : Fin 16) (h : Fin 4) (l : Fin 512) :
    Cert.Spec.expSharp (nB := 16) (nM := 512) (memBlk m c t) (keyBlk m c t) (strBlk m c t) b h l
      = Cert.Spec.expSharp (nB := 256) (nM := 8192) (m ((c.tc : Thread nD τ).loc main_arg0)) (m ((c.tc : Thread nD τ).loc main_arg1))
          (m ((c.tc : Thread nD τ).loc main_arg2)) (batchRow t b) h (memRow t l) := by
  -- Every read of a block in `exp (sharp)` is the read of the array at the global index.
  unfold Cert.Spec.expSharp Cert.Spec.sharp Cert.Spec.dot Cert.Spec.keyNorm Cert.Spec.memNorm
  simp only [memBlk_apply, keyBlk_apply, strBlk_apply]

end Cert.KernelIdeal.Body

end
-- ==== Proof.LibSums.lean ====
/-
  Two general facts about finite sums over `Fin`: a sum over `Fin N` of a function that vanishes from `n` on is
  the sum of its restriction to `Fin n`; and a sum over `Fin (B * S)` is the sum over `B` consecutive blocks of
  `S` terms.
-/
import Mathlib.Algebra.BigOperators.Fin
import Mathlib.Data.Fintype.BigOperators
import Mathlib.Data.Fin.SuccPred
import Mathlib.Logic.Equiv.Fin.Basic

namespace Cert.LibSums

/-- A function on `Fin N` that is `f` below `n` and zero from `n` on sums to the sum of `f`. -/
theorem sum_dite_lt {M : Type*} [AddCommMonoid M] {n N : ℕ} (h : n ≤ N) (f : Fin n → M) :
    ∑ k : Fin N, (if hk : k.val < n then f ⟨k.val, hk⟩ else 0) = ∑ k : Fin n, f k := by
  -- The inclusion `Fin n → Fin N` is injective, the summand vanishes off its range, and on its range the
  -- summand is `f`.
  refine (Fintype.sum_of_injective (Fin.castLE h) (Fin.castLE_injective h) f _ ?_ ?_).symm
  · intro i hi
    by_cases hk : i.val < n
    · exact absurd ⟨⟨i.val, hk⟩, Fin.ext rfl⟩ hi
    · simp only [hk, dite_false]
  · intro i
    have hi : (Fin.castLE h i).val < n := i.isLt
    simp only [hi, dite_true]
    rfl

/-- A sum over `B * S` indices, block by block. -/
theorem blocks_lt {B S : ℕ} (b : Fin B) (s : Fin S) : b.val * S + s.val < B * S :=
  calc b.val * S + s.val < b.val * S + S := Nat.add_lt_add_left s.isLt _
    _ = (b.val + 1) * S := (Nat.succ_mul _ _).symm
    _ ≤ B * S := Nat.mul_le_mul_right _ b.isLt

theorem sum_blocks {M : Type*} [AddCommMonoid M] (B S : ℕ) (f : Fin (B * S) → M) :
    ∑ b : Fin B, ∑ s : Fin S, f ⟨b.val * S + s.val, blocks_lt b s⟩ = ∑ k : Fin (B * S), f k := by
  -- The double sum is a sum over pairs `(b, s)`; the bijection `(b, s) ↦ s + S * b` onto `Fin (B * S)`
  -- carries each summand to the corresponding one.
  rw [← Fintype.sum_prod_type' (fun (b : Fin B) (s : Fin S) => f ⟨b.val * S + s.val, blocks_lt b s⟩)]
  refine Fintype.sum_equiv finProdFinEquiv _ _ ?_
  rintro ⟨b, s⟩
  refine congrArg f (Fin.ext ?_)
  show b.val * S + s.val = s.val + S * b.val
  rw [Nat.mul_comm, Nat.add_comm]

end Cert.LibSums
-- ==== Proof.KI.Final.lean ====
/-
  The result array after the run: every block the pipeline writes back (at the last tile of each batch block) is
  that block of `Spec.kernelOut` of the argument arrays, and these blocks cover the array.
-/
import proofs.«428490_j68822555951213_3_alg».proof.Proof.KI.State
import proofs.«428490_j68822555951213_3_alg».proof.Proof.KI.ParkFull
import proofs.«428490_j68822555951213_3_alg».proof.Proof.KI.AccSum
import proofs.«428490_j68822555951213_3_alg».proof.Proof.KI.Blocks
import proofs.«428490_j68822555951213_3_alg».proof.Proof.KI.Payload
import proofs.«428490_j68822555951213_3_alg».proof.Proof.LibSums

set_option maxRecDepth 16384

noncomputable section

namespace Cert.KernelIdeal.Body

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The kernel's result as one function of the argument arrays. -/
abbrev kernelG (c : Dev nD) : Buf (Elt Ideal) ((c.tc : Thread nD τ).loc main_v0) :=
  Cert.Spec.kernelOut (nB := 256) (nM := 8192) (m ((c.tc : Thread nD τ).loc main_arg0)) (m ((c.tc : Thread nD τ).loc main_arg1))
    (m ((c.tc : Thread nD τ).loc main_arg2))

/-- A sum over `Fin n` of a function of the index's value does not change when `n` is replaced by an equal number. -/
private theorem sum_fin_congr {M : Type*} [AddCommMonoid M] {n n' : ℕ} (hn : n = n') (f : ℕ → M) :
    ∑ j : Fin n, f j.val = ∑ j : Fin n', f j.val := by
  subst hn; rfl

/-- Window 3's index map: batch block `t / 16`, and the whole of the other two axes. -/
private theorem idx3 : ∀ t : Fin cfg0.N, win0_3.index t (0 : Fin 3) = t.val / 16 ∧ win0_3.index t (1 : Fin 3) = 0
    ∧ win0_3.index t (2 : Fin 3) = 0 :=
  (by decide +kernel : ∀ t : Fin grid0.N, win0_3.index t (0 : Fin 3) = t.val / 16 ∧ win0_3.index t (1 : Fin 3) = 0
    ∧ win0_3.index t (2 : Fin 3) = 0)

/-- Every tile point of the batch block of `t` has the batch rows of `t`. -/
private theorem batchRow_tilePoint (t : Fin cfg0.N) (j : ℕ) (b : Fin 16) : batchRow (tilePoint t j) b = batchRow t b :=
  Fin.ext (by
    show 16 * ((t.val / 16 * 16 + j % 16) / 16) + b.val = 16 * (t.val / 16) + b.val
    omega)

/-- Memory row `l` of tile `j` is memory row `512 j + l` of the arrays. -/
private theorem memRow_tilePoint (t : Fin cfg0.N) (j : ℕ) (hj : j < 16) (l : Fin 512) :
    (memRow (tilePoint t j) l).val = j * 512 + l.val := by
  show 512 * ((t.val / 16 * 16 + j % 16) % 16) + l.val = j * 512 + l.val
  omega

/-- The parked exponential at `(b, h, M)`: tile `M / 512` at row `M % 512`, which is `exp (sharp)` of the arrays at batch
    row `16 (t / 16) + b` and memory row `M`. -/
private theorem wholeExp_apply (c : Dev nD) (t : Fin cfg0.N) (b : Fin 16) (h : Fin 4) (M : Fin 8192) :
    wholeExp (F := Ideal) m c t (ix3 b h M) = Cert.Spec.expSharp (nB := 256) (nM := 8192) (m ((c.tc : Thread nD τ).loc main_arg0)) (m ((c.tc : Thread nD τ).loc main_arg1)) (m ((c.tc : Thread nD τ).loc main_arg2)) (batchRow t b) h M := by
  have hM := M.isLt
  show tileAt (F := Ideal) m c (tilePoint t (M.val / 512))
      (ix3 (⟨b.val, b.isLt⟩ : Fin 16) (⟨h.val, h.isLt⟩ : Fin 4) (⟨M.val % 512, Nat.mod_lt _ (by decide)⟩ : Fin 512)) = _
  unfold tileAt
  rw [Payload.expT_apply, expSharp_block, batchRow_tilePoint]
  have e2 : memRow (tilePoint t (M.val / 512)) (⟨M.val % 512, Nat.mod_lt _ (by decide)⟩ : Fin 512) = M :=
    Fin.ext (by rw [memRow_tilePoint t (M.val / 512) (by omega)]; show M.val / 512 * 512 + M.val % 512 = M.val; omega)
  rw [e2]

/-- The accumulator after the last tile of a batch block: the sum of `exp (sharp)` over all 8192 memory rows, tile by
    tile. -/
private theorem accAt_last (c : Dev nD) (t : Fin cfg0.N) (h15 : t.val % 16 = 15) (b : Fin 16) (h : Fin 4) :
    accAt (F := Ideal) m c t.val t.isLt (ix2 b h) = ∑ k : Fin 8192, Cert.Spec.expSharp (nB := 256) (nM := 8192) (m ((c.tc : Thread nD τ).loc main_arg0)) (m ((c.tc : Thread nD τ).loc main_arg1)) (m ((c.tc : Thread nD τ).loc main_arg2)) (batchRow t b) h k := by
  rw [accAt_apply]
  refine (sum_fin_congr (show t.val % 16 + 1 = 16 by omega) (fun n => ∑ l : Fin 512,
    Cert.Spec.expSharp (nB := 16) (nM := 512) (memBlk m c (tilePoint t n)) (keyBlk m c (tilePoint t n)) (strBlk m c (tilePoint t n)) b h l)).trans ?_
  refine Eq.trans ?_ (Cert.LibSums.sum_blocks 16 512 (fun k : Fin (16 * 512) =>
    Cert.Spec.expSharp (nB := 256) (nM := 8192) (m ((c.tc : Thread nD τ).loc main_arg0)) (m ((c.tc : Thread nD τ).loc main_arg1)) (m ((c.tc : Thread nD τ).loc main_arg2)) (batchRow t b) h (⟨k.val, k.isLt⟩ : Fin 8192)))
  refine Finset.sum_congr rfl fun j _ => Finset.sum_congr rfl fun l _ => ?_
  rw [expSharp_block, batchRow_tilePoint]
  exact congrArg (Cert.Spec.expSharp (nB := 256) (nM := 8192) (m ((c.tc : Thread nD τ).loc main_arg0)) (m ((c.tc : Thread nD τ).loc main_arg1)) (m ((c.tc : Thread nD τ).loc main_arg2)) (batchRow t b) h) (Fin.ext (memRow_tilePoint t j.val j.isLt l))

/-- What the last tile of a batch block leaves in the output's buffer, entry by entry: the kernel's quotient at batch
    row `16 (t / 16) + b`. -/
private theorem outAt_apply (c : Dev nD) (t : Fin cfg0.N) (h15 : t.val % 16 = 15) (b : Fin 16) (h : Fin 4) (M : Fin 8192) :
    outAt (F := Ideal) m c t (ix3 b h M) = kernelG m c (ix3 (batchRow t b) h M) := by
  unfold outAt
  rw [Payload.quot_apply, wholeExp_apply, accAt_last m c t h15]
  rfl

/-- The block a flushing point writes back is that block of the kernel's quotient of the argument arrays. -/
private theorem flushed_eq (c : Dev nD) (t : Fin cfg0.N) (hf : (cfg0.win 3).flush t = true) :
    (dats (F := Ideal) m 0 c).flushed 3 t = ((cfg0.win 3).blk t).view.read (Elt Ideal) (kernelG m c) := by
  have h15 : t.val % 16 = 15 := (flush0_3 t).mp hf
  obtain ⟨i0, i1, i2⟩ := idx3 t
  show (cfg0.win 3).cut (grid0.coords t) ((dats (F := Ideal) m 0 c).after 3 t) = _
  rw [after3]
  funext y
  have hy0 : (y 0).val < 16 := (y 0).isLt
  have hy1 : (y 1).val < 4 := (y 1).isLt
  have hy2 : (y 2).val < 8192 := (y 2).isLt
  show outAt (F := Ideal) m c t ((cfg0.win 3).xinj (grid0.coords t) y) = kernelG m c (((cfg0.win 3).blk t).view.emb y)
  have el : (cfg0.win 3).xinj (grid0.coords t) y
      = ix3 (⟨(y 0).val, hy0⟩ : Fin 16) (⟨(y 1).val, hy1⟩ : Fin 4) (⟨(y 2).val, hy2⟩ : Fin 8192) := by
    funext a; match a with | ⟨0, _⟩ => rfl | ⟨1, _⟩ => rfl | ⟨2, _⟩ => rfl
  have er : ((cfg0.win 3).blk t).view.emb y
      = ix3 (batchRow t ⟨(y 0).val, hy0⟩) (⟨(y 1).val, hy1⟩ : Fin 4) (⟨(y 2).val, hy2⟩ : Fin 8192) := by
    funext a; apply Fin.ext
    match a with
    | ⟨0, _⟩ => show win0_3.index t (0 : Fin 3) * 16 + 1 * (y 0).val = 16 * (t.val / 16) + (y 0).val; rw [i0]; omega
    | ⟨1, _⟩ => show win0_3.index t (1 : Fin 3) * 4 + 1 * (y 1).val = (y 1).val; rw [i1]; omega
    | ⟨2, _⟩ => show win0_3.index t (2 : Fin 3) * 8192 + 1 * (y 2).val = (y 2).val; rw [i2]; omega
  exact (congrArg (outAt (F := Ideal) m c t) el).trans ((outAt_apply m c t h15 _ _ _).trans (congrArg (kernelG m c) er).symm)

/-- The last tile of the batch block that holds batch row `r`. -/
private def lastPoint (r : ℕ) (hr : r < 256) : Fin cfg0.N :=
  ⟨16 * (r / 16) + 15, by have hN : cfg0.N = 256 := N_0; omega⟩

theorem final (c : Dev nD) : (dats (F := Ideal) m 0 c).arrAt 3 cfg0.N = kernelG m c :=
  (dats (F := Ideal) m 0 c).arrAt_eq_of_cover 3 (kernelG m c) (flushed_eq m c) fun i => by
    have hi0 : (i 0).val < 256 := (i 0).isLt
    have hi1 : (i 1).val < 4 := (i 1).isLt
    have hi2 : (i 2).val < 8192 := (i 2).isLt
    refine ⟨lastPoint (i 0).val hi0, (flush0_3 _).mpr (by show (16 * ((i 0).val / 16) + 15) % 16 = 15; omega), ?_⟩
    obtain ⟨i0, i1, i2⟩ := idx3 (lastPoint (i 0).val hi0)
    show i ∈ ((View.whole main_v0).slice (win0_3.rect (lastPoint (i 0).val hi0))).set
    rw [View.set_slice_whole, Rect.mem_set_unit]
    intro a
    match a with
    | ⟨0, _⟩ =>
      show win0_3.index (lastPoint (i 0).val hi0) (0 : Fin 3) * 16 ≤ (i 0).val
        ∧ (i 0).val < win0_3.index (lastPoint (i 0).val hi0) (0 : Fin 3) * 16 + 16
      rw [i0]
      show (16 * ((i 0).val / 16) + 15) / 16 * 16 ≤ (i 0).val ∧ (i 0).val < (16 * ((i 0).val / 16) + 15) / 16 * 16 + 16
      omega
    | ⟨1, _⟩ =>
      show win0_3.index (lastPoint (i 0).val hi0) (1 : Fin 3) * 4 ≤ (i 1).val
        ∧ (i 1).val < win0_3.index (lastPoint (i 0).val hi0) (1 : Fin 3) * 4 + 4
      rw [i1]; omega
    | ⟨2, _⟩ =>
      show win0_3.index (lastPoint (i 0).val hi0) (2 : Fin 3) * 8192 ≤ (i 2).val
        ∧ (i 2).val < win0_3.index (lastPoint (i 0).val hi0) (2 : Fin 3) * 8192 + 8192
      rw [i2]; omega

end Cert.KernelIdeal.Body

end
-- ==== Proof.RefValue.lean ====
/-
  The reference's result, read operation by operation, is the softmax with the row maximum subtracted (`Spec.refOut`).

  The reading goes inside out. The called function is the specification's softplus, because an extended real is never
  different from itself and subtracting or adding the zero word changes nothing. The two norms are roots of a
  32-term sum of squares plus the stabiliser; the contraction is the 32-term inner product; their quotient times the
  softplus is the sharpened score. The row maximum is a fold of `max` over the 8192 memory rows from the word that
  encodes −∞, and joining it once more with −∞ leaves it as it is. The result is the exponential of the shifted score
  over the row sum of those exponentials, the sum starting from the zero word.
-/
import proofs.«428490_j68822555951213_3_alg».proof.Proof.Gen.ReferenceIdeal.Run
import proofs.«428490_j68822555951213_3_alg».proof.Proof.Gen.ReferenceIdeal.Read
import proofs.«428490_j68822555951213_3_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.ValueIdx

/-- The called function at an entry is the specification's softplus of that entry. -/
private theorem softplus_eq (x2 : (⟨S256x4, .f32⟩ : BufTy).Contents (Elt Ideal)) (B : Fin 256) (h : Fin 4) :
    Read.val_main_v19 (F := Ideal) x2 (ix2 B h) = Cert.Spec.softplus (x2 (ix2 B h)) := by
  rw [Read.val_main_v19_apply, Read.val_main_call0_v4_apply, Read.val_main_call0_v11_apply, Read.val_main_call0_v1_apply,
    Read.val_main_call0_v10_apply, Read.val_main_call0_v9_apply, Read.val_main_call0_v8_apply, Read.val_main_call0_v7_apply,
    Read.val_main_call0_v3_apply, Read.val_main_call0_v0_apply, Read.val_main_call0_v2_apply, Read.val_main_call0_cst_apply]
  -- An extended real is never different from itself, so the select takes its second branch.
  have hc : ∀ d : EReal, FloatOps.cmpf (F := Ideal) (φ := .f32) CmpFPredicate.une d d = 0#1 := fun d => by
    rw [Ideal.cmpf_def]
    show BitVec.ofBool (decide (d ≠ d)) = 0#1
    simp
  rw [hc, select_zero]
  simp only [Ideal.ofBits_def, Ideal.ofBits_zero_f32, Ideal.subf_def, sub_zero, Ideal.addf_def, Ideal.maximumf_def,
    Ideal.hostUnary_log1p_def, Ideal.hostUnary_exp_def, Ideal.hostNegf_def, Ideal.negf_def, Ideal.hostAbsf_def, Ideal.absf_def]
  rfl

/-- The squared-key row sum, stabilised and rooted, is the specification's key norm. -/
private theorem keyNorm_eq (x1 : (⟨S256x4x32, .f32⟩ : BufTy).Contents (Elt Ideal)) (B : Fin 256) (h : Fin 4) :
    Read.val_main_v10 (F := Ideal) x1 (ix2 B h) = Cert.Spec.keyNorm (nB := 256) x1 B h := by
  have e : ∀ k : Fin 32, Read.idx_main_v7 (ix2 B h) k = ix3 B h k := fun k =>
    funext fun a => Fin.ext (by match a with | ⟨0, _⟩ => rfl | ⟨1, _⟩ => rfl | ⟨2, _⟩ => rfl)
  rw [Read.val_main_v10_apply, Read.val_main_v9_apply, Read.val_main_v7_apply, Read.val_main_v8_apply,
    Read.val_main_cst_1_apply, Read.val_main_cst_2_apply]
  simp only [Read.val_main_v6_apply, e, Ideal.ofBits_def, Ideal.ofBits_zero_f32, zero_add, Ideal.addf_def, Ideal.mulf_def,
    Ideal.hostUnary_sqrt_def]
  rfl

/-- The squared-memory row sum, stabilised and rooted, is the specification's memory norm. -/
private theorem memNorm_eq (x0 : (⟨S256x8192x32, .f32⟩ : BufTy).Contents (Elt Ideal)) (B : Fin 256) (M : Fin 8192) :
    Read.val_main_v5 (F := Ideal) x0 (ix2 B M) = Cert.Spec.memNorm (nB := 256) (nM := 8192) x0 B M := by
  have e : ∀ k : Fin 32, Read.idx_main_v2 (ix2 B M) k = ix3 B M k := fun k =>
    funext fun a => Fin.ext (by match a with | ⟨0, _⟩ => rfl | ⟨1, _⟩ => rfl | ⟨2, _⟩ => rfl)
  rw [Read.val_main_v5_apply, Read.val_main_v4_apply, Read.val_main_v2_apply, Read.val_main_v3_apply,
    Read.val_main_cst_apply, Read.val_main_cst_0_apply]
  simp only [Read.val_main_v1_apply, e, Ideal.ofBits_def, Ideal.ofBits_zero_f32, zero_add, Ideal.addf_def, Ideal.mulf_def,
    Ideal.hostUnary_sqrt_def]
  rfl

/-- The contraction over the 32 features is the specification's inner product. -/
private theorem dot_eq (x0 : (⟨S256x8192x32, .f32⟩ : BufTy).Contents (Elt Ideal)) (x1 : (⟨S256x4x32, .f32⟩ : BufTy).Contents (Elt Ideal))
    (B : Fin 256) (h : Fin 4) (M : Fin 8192) :
    Read.val_main_v0 (F := Ideal) x0 x1 (ix3 B h M) = Cert.Spec.dot (nB := 256) (nM := 8192) x0 x1 B h M := by
  have el : ∀ k : Fin 32, Read.lidx_main_v0 (ix3 B h M) k = ix3 B h k := fun k =>
    funext fun a => Fin.ext (by match a with | ⟨0, _⟩ => rfl | ⟨1, _⟩ => rfl | ⟨2, _⟩ => rfl)
  have er : ∀ k : Fin 32, Read.ridx_main_v0 (ix3 B h M) k = ix3 B M k := fun k =>
    funext fun a => Fin.ext (by match a with | ⟨0, _⟩ => rfl | ⟨1, _⟩ => rfl | ⟨2, _⟩ => rfl)
  rw [Read.val_main_v0_apply]
  simp only [el, er]
  rfl

/-- The scaled cosine score, entry by entry, is the specification's sharpened activation. -/
private theorem sharp_eq (x0 : (⟨S256x8192x32, .f32⟩ : BufTy).Contents (Elt Ideal)) (x1 : (⟨S256x4x32, .f32⟩ : BufTy).Contents (Elt Ideal))
    (x2 : (⟨S256x4, .f32⟩ : BufTy).Contents (Elt Ideal)) (B : Fin 256) (h : Fin 4) (M : Fin 8192) :
    Read.val_main_v22 (F := Ideal) x0 x1 x2 (ix3 B h M) = Cert.Spec.sharp (nB := 256) (nM := 8192) x0 x1 x2 B h M := by
  have ek : Read.idx_main_v11 (Read.idx_main_v13 (ix3 B h M)) = ix2 B h :=
    funext fun a => Fin.ext (by match a with | ⟨0, _⟩ => rfl | ⟨1, _⟩ => rfl)
  have em : Read.idx_main_v12 (Read.idx_main_v14 (ix3 B h M)) = ix2 B M :=
    funext fun a => Fin.ext (by match a with | ⟨0, _⟩ => rfl | ⟨1, _⟩ => rfl)
  have es : Read.idx_main_v20 (Read.idx_main_v21 (ix3 B h M)) = ix2 B h :=
    funext fun a => Fin.ext (by match a with | ⟨0, _⟩ => rfl | ⟨1, _⟩ => rfl)
  rw [Read.val_main_v22_apply, Read.val_main_v18_apply, Read.val_main_v17_apply, Read.val_main_v15_apply,
    Read.val_main_v13_apply, Read.val_main_v11_apply, Read.val_main_v14_apply, Read.val_main_v12_apply,
    Read.val_main_v16_apply, Read.val_main_cst_3_apply, Read.val_main_v21_apply, Read.val_main_v20_apply,
    ek, em, es, keyNorm_eq, memNorm_eq, dot_eq, softplus_eq]
  rfl

/-- The row maximum: the fold of the maximum over the 8192 memory rows from the constant that encodes −∞, joined once more
    with −∞, is the specification's row maximum. -/
private theorem rowMax_eq (x0 : (⟨S256x8192x32, .f32⟩ : BufTy).Contents (Elt Ideal)) (x1 : (⟨S256x4x32, .f32⟩ : BufTy).Contents (Elt Ideal))
    (x2 : (⟨S256x4, .f32⟩ : BufTy).Contents (Elt Ideal)) (B : Fin 256) (h : Fin 4) :
    Read.val_main_v25 (F := Ideal) x0 x1 x2 (ix2 B h) = Cert.Spec.rowMax (nB := 256) (nM := 8192) x0 x1 x2 B h := by
  have hr : S256x4x8192.Reduces [2] S256x4 := by decide
  have hbot : Ideal.ofBits .f32 0xFF800000#32 = (⊥ : EReal) := by simp [Ideal.ofBits, Ideal.ieee]
  have hl : ∀ k : Fin (S256x4x8192.size 2), hr.lift (ix2 B h) k = ix3 B h (⟨k.val, k.isLt⟩ : Fin 8192) := fun k => by
    funext c; apply Fin.ext; fin_cases c <;> rfl
  rw [Read.val_main_v25_apply, Read.val_main_v24_apply, Read.val_main_cst_5_apply]
  unfold Read.val_main_v23
  rw [Host.reduce_eq_fold_single FloatOps.maximumf _ _ _ hr _, Read.val_main_cst_4_apply]
  rw [Ideal.ofBits_def, hbot]
  show max ⊥ (Finset.fold max ⊥ (fun k : Fin 8192 => Read.val_main_v22 (F := Ideal) x0 x1 x2 (hr.lift (ix2 B h) k)) Finset.univ)
    = Finset.fold max ⊥ (fun M : Fin 8192 => Cert.Spec.sharp (nB := 256) (nM := 8192) x0 x1 x2 B h M) Finset.univ
  rw [max_eq_right bot_le]
  refine Finset.fold_congr fun k _ => ?_
  exact (congrArg (Read.val_main_v22 (F := Ideal) x0 x1 x2) (hl k)).trans (sharp_eq x0 x1 x2 B h k)

/-- The shifted exponential at an entry. -/
private theorem exp_eq (x0 : (⟨S256x8192x32, .f32⟩ : BufTy).Contents (Elt Ideal)) (x1 : (⟨S256x4x32, .f32⟩ : BufTy).Contents (Elt Ideal))
    (x2 : (⟨S256x4, .f32⟩ : BufTy).Contents (Elt Ideal)) (B : Fin 256) (h : Fin 4) (M : Fin 8192) :
    Read.val_main_v29 (F := Ideal) x0 x1 x2 (ix3 B h M)
      = Ideal.exp (Cert.Spec.sharp (nB := 256) (nM := 8192) x0 x1 x2 B h M - Cert.Spec.rowMax (nB := 256) (nM := 8192) x0 x1 x2 B h) := by
  have e : Read.idx_main_v26 (Read.idx_main_v27 (ix3 B h M)) = ix2 B h :=
    funext fun a => Fin.ext (by match a with | ⟨0, _⟩ => rfl | ⟨1, _⟩ => rfl)
  rw [Read.val_main_v29_apply, Read.val_main_v28_apply, Read.val_main_v27_apply, Read.val_main_v26_apply, e, rowMax_eq, sharp_eq]
  rfl

/-- The row sum of the shifted exponentials. -/
private theorem sum_eq (x0 : (⟨S256x8192x32, .f32⟩ : BufTy).Contents (Elt Ideal)) (x1 : (⟨S256x4x32, .f32⟩ : BufTy).Contents (Elt Ideal))
    (x2 : (⟨S256x4, .f32⟩ : BufTy).Contents (Elt Ideal)) (B : Fin 256) (h : Fin 4) :
    Read.val_main_v30 (F := Ideal) x0 x1 x2 (ix2 B h)
      = ∑ M : Fin 8192, Ideal.exp (Cert.Spec.sharp (nB := 256) (nM := 8192) x0 x1 x2 B h M - Cert.Spec.rowMax (nB := 256) (nM := 8192) x0 x1 x2 B h) := by
  have e : ∀ k : Fin 8192, Read.idx_main_v30 (ix2 B h) k = ix3 B h k := fun k =>
    funext fun a => Fin.ext (by match a with | ⟨0, _⟩ => rfl | ⟨1, _⟩ => rfl | ⟨2, _⟩ => rfl)
  rw [Read.val_main_v30_apply, Read.val_main_cst_6_apply]
  simp only [e, exp_eq, Ideal.ofBits_def, Ideal.ofBits_zero_f32, zero_add]

/-- The last stage, index by index, is the softmax with the row maximum subtracted. -/
theorem result_eq (x0 : (⟨S256x8192x32, .f32⟩ : BufTy).Contents (Elt Ideal)) (x1 : (⟨S256x4x32, .f32⟩ : BufTy).Contents (Elt Ideal))
    (x2 : (⟨S256x4, .f32⟩ : BufTy).Contents (Elt Ideal)) :
    Read.val_main_v33 (F := Ideal) x0 x1 x2 = Cert.Spec.refOut (nB := 256) (nM := 8192) x0 x1 x2 := by
  funext i
  obtain ⟨B, h, M, rfl⟩ : ∃ (B : Fin 256) (h : Fin 4) (M : Fin 8192), i = ix3 B h M := ⟨i 0, i 1, i 2, eq_ix3 i⟩
  have e : Read.idx_main_v31 (Read.idx_main_v32 (ix3 B h M)) = ix2 B h :=
    funext fun a => Fin.ext (by match a with | ⟨0, _⟩ => rfl | ⟨1, _⟩ => rfl)
  rw [Read.val_main_v33_apply, Read.val_main_v32_apply, Read.val_main_v31_apply, e, sum_eq, exp_eq]
  rfl

/-- The reference's run leaves that softmax in its result and its three arguments as they were. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v33)
          = Cert.Spec.refOut (nB := 256) (nM := 8192) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((Read.val_main_v33_eq m c).trans (result_eq _ _ _)), (h c).2⟩)
    (Cert.ReferenceIdeal.Value.run (F := Ideal) m ρ)

end Cert.ReferenceIdeal.RefValue

end
-- ==== Proof.Law.lean ====
/-
  The softmax law: with every entry of the three arrays a real number, every `sharp` is a real number, so the
  exponentials may be divided through by `exp (max)`: `exp (s - μ) / ∑ exp (s' - μ) = exp s / ∑ exp s'`.
-/
import proofs.«428490_j68822555951213_3_alg».proof.Proof.Spec

noncomputable section

namespace Cert.Spec

open Idealize.ShloMosaic Idealize.ShloMosaic.ValueIdx

/-- A finite sum of coerced reals is the coerced sum. -/
private theorem coe_sum {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- The maximum of two coerced reals is the coerced maximum. -/
private theorem coe_max (a b : ℝ) : max (a : EReal) (b : EReal) = ((max a b : ℝ) : EReal) :=
  (EReal.coe_strictMono.monotone.map_max).symm

/-- The stabiliser `ε` is a positive real. -/
private theorem eps_pos : ∃ r : ℝ, 0 < r ∧ eps = (r : EReal) := by
  refine ⟨10995116 * (2 : ℝ) ^ (-40 : ℤ), by positivity, ?_⟩
  simp [eps, Ideal.ofBits, Ideal.ieee, -EReal.coe_mul]

/-- `softplus` of a real is a real: `1 + exp (-|s|)` is positive, so its logarithm is the real one. -/
private theorem softplus_coe (s : ℝ) : ∃ r : ℝ, softplus (s : EReal) = (r : EReal) := by
  refine ⟨max s 0 + Real.log (1 + Real.exp (-(max s (-s)))), ?_⟩
  have h3 : ¬ (1 + Real.exp (-(max s (-s))) ≤ 0) := not_le.mpr (by positivity)
  rw [softplus, ← EReal.coe_zero, coe_max, ← EReal.coe_neg, coe_max, ← EReal.coe_neg, Ideal.exp_coe, Ideal.log1p,
    ← EReal.coe_one, ← EReal.coe_add, Ideal.log_coe, if_neg h3, ← EReal.coe_add]

/-- `√(∑ v² + ε)` of a real vector is a positive real. -/
private theorem norm_pos {n : ℕ} (v : Fin n → ℝ) :
    ∃ r : ℝ, 0 < r ∧ Ideal.sqrt ((∑ w : Fin n, (v w : EReal) * (v w : EReal)) + eps) = (r : EReal) := by
  obtain ⟨e, he, hee⟩ := eps_pos
  have hpos : 0 < (∑ w : Fin n, v w * v w) + e :=
    add_pos_of_nonneg_of_pos (Finset.sum_nonneg fun w _ => mul_self_nonneg (v w)) he
  refine ⟨Real.sqrt ((∑ w : Fin n, v w * v w) + e), Real.sqrt_pos.2 hpos, ?_⟩
  simp only [← EReal.coe_mul, coe_sum, hee, ← EReal.coe_add]
  rw [Ideal.sqrt_coe, if_neg (not_lt.mpr hpos.le)]

/-- Every `sharp` of real arrays is a real: the inner product is a real, both norms are positive reals, so the
    denominator `‖k‖·‖x‖ + ε` is a positive real and the quotient is real division, and `softplus` is real. -/
private theorem sharp_real {nB nM : ℕ}
    (X : (⟨3, ![nB, nM, 32]⟩ : Shape).Idx → EReal) (K : (⟨3, ![nB, 4, 32]⟩ : Shape).Idx → EReal)
    (S : (⟨2, ![nB, 4]⟩ : Shape).Idx → EReal)
    (hX : ∀ i, ∃ r : ℝ, X i = (r : EReal)) (hK : ∀ i, ∃ r : ℝ, K i = (r : EReal)) (hS : ∀ i, ∃ r : ℝ, S i = (r : EReal))
    (B : Fin nB) (h : Fin 4) (M : Fin nM) : ∃ r : ℝ, sharp X K S B h M = (r : EReal) := by
  choose x hx using hX
  choose k hk using hK
  choose s hs using hS
  obtain ⟨e, he, hee⟩ := eps_pos
  obtain ⟨a, ha, hka⟩ := norm_pos (fun w => k (ix3 B h w))
  obtain ⟨b, hb, hmb⟩ := norm_pos (fun w => x (ix3 B M w))
  obtain ⟨p, hp⟩ := softplus_coe (s (ix2 B h))
  have hd : dot X K B h M = ((∑ w : Fin 32, k (ix3 B h w) * x (ix3 B M w) : ℝ) : EReal) := by
    simp only [dot, hx, hk, ← EReal.coe_mul, coe_sum]
  have hkn : keyNorm K B h = (a : EReal) := by
    simp only [keyNorm, hk]; exact hka
  have hmn : memNorm X B M = (b : EReal) := by
    simp only [memNorm, hx]; exact hmb
  have hden : a * b + e ≠ 0 := (add_pos (mul_pos ha hb) he).ne'
  refine ⟨(∑ w : Fin 32, k (ix3 B h w) * x (ix3 B M w)) * (1 / (a * b + e)) * p, ?_⟩
  rw [sharp, hd, hkn, hmn, hee, hs, hp, ← EReal.coe_mul, ← EReal.coe_add, Ideal.div_coe hden, ← EReal.coe_mul,
    ← EReal.coe_mul]

/-- The maximum of a nonempty finite family of reals, folded from `-∞`, is a real. -/
private theorem fold_max_real {ι : Type*} (s : Finset ι) (hs : s.Nonempty) (g : ι → ℝ) :
    ∃ μ : ℝ, s.fold max ⊥ (fun i => (g i : EReal)) = (μ : EReal) := by
  induction hs using Finset.Nonempty.cons_induction with
  | singleton a => exact ⟨g a, by rw [Finset.fold_singleton]; exact max_bot_right _⟩
  | cons a s ha hs ih =>
    obtain ⟨μ, hμ⟩ := ih
    exact ⟨max (g a) μ, by rw [Finset.fold_cons, hμ]; exact coe_max _ _⟩

/-- The law over the reals: `exp (s - μ) = exp s / exp μ`, the positive factor `1 / exp μ` comes out of the sum,
    and it cancels in the quotient; both denominators are positive reals, so both quotients are real division. -/
private theorem softmax_real {n : ℕ} (hn : 0 < n) (σ : Fin n → ℝ) (μ : ℝ) (M : Fin n) :
    Ideal.div (Ideal.exp (σ M : EReal)) (∑ M' : Fin n, Ideal.exp (σ M' : EReal)) =
      Ideal.div (Ideal.exp ((σ M : EReal) - (μ : EReal)))
        (∑ M' : Fin n, Ideal.exp ((σ M' : EReal) - (μ : EReal))) := by
  haveI : Nonempty (Fin n) := ⟨⟨0, hn⟩⟩
  have h1 : 0 < ∑ M' : Fin n, Real.exp (σ M') :=
    Finset.sum_pos (fun i _ => Real.exp_pos _) Finset.univ_nonempty
  have h2 : 0 < ∑ M' : Fin n, Real.exp (σ M' - μ) :=
    Finset.sum_pos (fun i _ => Real.exp_pos _) Finset.univ_nonempty
  have h3 : ∑ M' : Fin n, Real.exp (σ M' - μ) = (∑ M' : Fin n, Real.exp (σ M')) / Real.exp μ := by
    rw [Finset.sum_div]; exact Finset.sum_congr rfl fun i _ => Real.exp_sub _ _
  have h4 : Real.exp (σ M) * (1 / ∑ M' : Fin n, Real.exp (σ M')) =
      Real.exp (σ M - μ) * (1 / ∑ M' : Fin n, Real.exp (σ M' - μ)) := by
    rw [h3, Real.exp_sub]
    have h5 := Real.exp_pos μ
    field_simp
  simp only [← EReal.coe_sub, Ideal.exp_coe, coe_sum]
  rw [Ideal.div_coe h1.ne', Ideal.div_coe h2.ne', ← EReal.coe_mul, ← EReal.coe_mul, h4]

theorem kernelOut_eq_refOut {nB nM : ℕ} (hM : 0 < nM)
    (X : (⟨3, ![nB, nM, 32]⟩ : Shape).Idx → EReal) (K : (⟨3, ![nB, 4, 32]⟩ : Shape).Idx → EReal)
    (S : (⟨2, ![nB, 4]⟩ : Shape).Idx → EReal)
    (hX : ∀ i, ∃ r : ℝ, X i = (r : EReal)) (hK : ∀ i, ∃ r : ℝ, K i = (r : EReal)) (hS : ∀ i, ∃ r : ℝ, S i = (r : EReal)) :
    kernelOut X K S = refOut X K S := by
  -- The law for one batch row, head and memory row: name the reals `σ M' = sharp B h M'` and the real `μ` their
  -- maximum is, and read both sides over the reals.
  have key : ∀ (B : Fin nB) (h : Fin 4) (M : Fin nM),
      Ideal.div (expSharp X K S B h M) (∑ M' : Fin nM, expSharp X K S B h M') =
        Ideal.div (Ideal.exp (sharp X K S B h M - rowMax X K S B h))
          (∑ M' : Fin nM, Ideal.exp (sharp X K S B h M' - rowMax X K S B h)) := by
    intro B h M
    choose σ hσ using fun M' => sharp_real X K S hX hK hS B h M'
    haveI : Nonempty (Fin nM) := ⟨⟨0, hM⟩⟩
    obtain ⟨μ, hμ⟩ := fold_max_real Finset.univ Finset.univ_nonempty σ
    have hmax : rowMax X K S B h = (μ : EReal) := by
      rw [rowMax]; simp only [hσ]; exact hμ
    simp only [expSharp, hσ, hmax]
    exact softmax_real hM σ μ M
  funext j
  exact key (j 0) (j 1) (j 2)

end Cert.Spec

end
-- ==== Proof.Finite.lean ====
/-
  The precondition read: "every `|entry| < +∞`" says every entry of the three arrays is a real number.
-/
import proofs.«428490_j68822555951213_3_alg».proof.Pre_finite_inputs
import proofs.«428490_j68822555951213_3_alg».proof.Proof.Gen.Pre_finite_inputs
import Idealize.ShloMosaic.PureOps.Ideal
import Idealize.ShloMosaic.Lib.ReduceAll

noncomputable section

namespace Cert.Finite

open Idealize.ShloMosaic Cert.Pre_finite_inputs

/-- The rank-0 shape has one index. -/
private instance subsingleton_idx : Subsingleton S_.Idx := ⟨fun _ _ => funext fun d => d.elim0⟩

/-- The word `0x7F800000` is `+∞`. -/
private theorem inf_eq_top : Ideal.ofBits .f32 0x7F800000#32 = (⊤ : EReal) := by
  simp [Ideal.ofBits, Ideal.ieee]

/-- An extended real `v` with `max v (-v) < +∞` is a real: `⊤` gives `⊤ < ⊤`, and `⊥` gives `-⊥ = ⊤ < ⊤`. -/
private theorem real_of_abs_lt_inf (v : EReal)
    (h : Ideal.cmp .olt (max v (-v)) (Ideal.ofBits .f32 0x7F800000#32) = 1#1) : ∃ r : ℝ, v = (r : EReal) := by
  rw [inf_eq_top] at h
  induction v using EReal.rec with
  | bot => simp [Ideal.cmp] at h
  | coe r => exact ⟨r, rfl⟩
  | top => simp [Ideal.cmp] at h

/-- One `jnp.all(|a| < +∞)` that is 1: every entry of `a` is a real. -/
private theorem all_real {s : Shape} {axes : List (Fin s.rank)} (a : FVec Ideal s .f32)
    (hb : S_.BroadcastsInDim s (![] : Fin 0 → Fin s.rank)) (hr : s.ReducesTo axes S_) (hu : 0 < S_.numel) (j : S_.Idx)
    (e : Host.reduce IntOp.andi
        (cmpf .olt (Host.absf a) (broadcastInDim s ![] hb (constant (F := Ideal) S_ .f32 0x7F800000#32)))
        (constantI S_ 1 1#1) hr hu j = 1#1) (i : s.Idx) : ∃ r : ℝ, a i = (r : EReal) :=
  real_of_abs_lt_inf (a i) (Host.reduce_andi_all _ _ hr hu j e i)

theorem finite_of_pre [Cert.Pre_finite_inputs.Facts] (x : FVec Ideal S256x8192x32 .f32) (k : FVec Ideal S256x4x32 .f32) (s : FVec Ideal S256x4 .f32)
    (h : Cert.Pre_finite_inputs.fn (F := Ideal) x k s = fun _ => 1#1) :
    (∀ i, ∃ r : ℝ, x i = (r : EReal)) ∧ (∀ i, ∃ r : ℝ, k i = (r : EReal)) ∧ (∀ i, ∃ r : ℝ, s i = (r : EReal)) := by
  have h0 := congrFun h (fun a => a.elim0)
  dsimp only [Cert.Pre_finite_inputs.fn, andi] at h0
  obtain ⟨h12, h3⟩ := IntOp.andi_eq_one.1 h0
  obtain ⟨h1, h2⟩ := IntOp.andi_eq_one.1 h12
  exact ⟨all_real x _ _ _ _ h1, all_real k _ _ _ _ h2, all_real s _ _ _ _ h3⟩

end Cert.Finite

end
-- ==== Proof.lean ====
/-
  The claims. The kernel streams a batch block's memory rows through in 16 tiles: each tile's exponentials
  `exp (sharp)` are parked in a scratch buffer and their row sums accumulated, and at the last tile the parked block
  is divided by the sums. The reference is the same `sharp` followed by a softmax that subtracts the row maximum.
  With finite inputs every `sharp` is a real number and the two quotients agree (Proof/Law.lean). The frames of
  the kernel's two programs are its run with the results dropped (Proof/KB/Body.lean, Proof/KI/Body.lean), the
  reference's is its run; the idealization rewrote nothing, so `preserves` is trivial.
-/
import proofs.«428490_j68822555951213_3_alg».proof.Defs
import proofs.«428490_j68822555951213_3_alg».proof.Proof.Gen.Kernel
import proofs.«428490_j68822555951213_3_alg».proof.Proof.Gen.KernelIdeal
import proofs.«428490_j68822555951213_3_alg».proof.Proof.Gen.ReferenceIdeal
import proofs.«428490_j68822555951213_3_alg».proof.Proof.Gen.Pre_finite_inputs
import proofs.«428490_j68822555951213_3_alg».proof.Proof.KB.Body
import proofs.«428490_j68822555951213_3_alg».proof.Proof.KI.Body
import proofs.«428490_j68822555951213_3_alg».proof.Proof.KI.Final
import proofs.«428490_j68822555951213_3_alg».proof.Proof.RefValue
import proofs.«428490_j68822555951213_3_alg».proof.Proof.Law
import proofs.«428490_j68822555951213_3_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Body.frame (F := Bits) m ρ

theorem frame_kernelIdeal : Cert.frame_KernelIdeal (hKernelIdeal := Cert.KernelIdeal.Gen.facts) (hPre_finite_inputs := Cert.Pre_finite_inputs.Gen.facts) :=
  fun m ρ _ => Cert.KernelIdeal.Body.frame (F := Ideal) m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

open Cert.KernelIdeal Cert.KernelIdeal.Gen Cert.KernelIdeal.Body in
/-- The idealized kernel's run with its result named: the result array ends at `Spec.kernelOut` of the arguments,
    the arguments unchanged. -/
theorem kernel_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = kernelG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Body.kernelG m c, kernel_value m ρ, ?_⟩
  refine (θ_run Cert.ReferenceIdeal.defs _ _).mono (fun _ h c => ⟨(h c).1.trans ?_, (h c).2⟩)
    (Cert.ReferenceIdeal.RefValue.run_value m' ρ')
  rw [(hagree c).1, (hagree c).2.1, (hagree c).2.2]
  obtain ⟨hX, hK, hS⟩ := Cert.Finite.finite_of_pre _ _ _ (hpre c)
  exact (Cert.Spec.kernelOut_eq_refOut (by decide) _ _ _ hX hK hS).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
